-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S5x2000x128 : Shape := ⟨3, ![5, 2000, 128]⟩
abbrev S40x10000 : Shape := ⟨2, ![40, 10000]⟩
abbrev S5x40x128 : Shape := ⟨3, ![5, 40, 128]⟩
abbrev S40x128 : Shape := ⟨2, ![40, 128]⟩
abbrev S1x40x128 : Shape := ⟨3, ![1, 40, 128]⟩

abbrev nBuf : Space → Nat
  | .hbm => 6
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S5x2000x128, .f32⟩
  | .hbm, ⟨5, _⟩ => ⟨S10000x128, .f32⟩
  | .local _ .vmem, ⟨0, _⟩ => ⟨S40x10000, .f32⟩
  | .local _ .vmem, ⟨1, _⟩ => ⟨S40x10000, .f32⟩
  | .local _ .vmem, ⟨2, _⟩ => ⟨S40x10000, .f32⟩
  | .local _ .vmem, ⟨3, _⟩ => ⟨S40x10000, .f32⟩
  | .local _ .vmem, ⟨4, _⟩ => ⟨S40x10000, .f32⟩
  | .local _ .vmem, ⟨5, _⟩ => ⟨S40x10000, .f32⟩
  | .local _ .vmem, ⟨6, _⟩ => ⟨S40x10000, .f32⟩
  | .local _ .vmem, ⟨7, _⟩ => ⟨S40x10000, .f32⟩
  | .local _ .vmem, ⟨8, _⟩ => ⟨S40x10000, .f32⟩
  | .local _ .vmem, ⟨9, _⟩ => ⟨S40x10000, .f32⟩
  | .local _ .vmem, ⟨10, _⟩ => ⟨S10000x128, .f32⟩
  | .local _ .vmem, ⟨11, _⟩ => ⟨S128x128, .f32⟩
  | .local _ .vmem, ⟨12, _⟩ => ⟨S128x128, .f32⟩
  | .local _ .vmem, ⟨13, _⟩ => ⟨S5x40x128, .f32⟩
  | .local _ .vmem, ⟨14, _⟩ => ⟨S5x40x128, .f32⟩
  | .local _ .vmem, ⟨15, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![50], ![false]⟩

def k0_off1 (i : grid0.Coords) (c0_i32_4 : BitVec 32) : Fin 2 → Nat :=
  let arg0 : BitVec 32 := BitVec.ofNat 32 (i 0).val
  let c40_i32 : BitVec 32 := 40#32
  let v5 : BitVec 32 := Scalar.muli arg0 c40_i32
  let v6 : BitVec 32 := Scalar.addi c0_i32_4 v5
  let v9 : Index := Scalar.indexCast v6
  let c0_7 : Index := 0#32
  ![v9.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c50_i32 : BitVec 32 := 50#32
  let v0 : BitVec 32 := Scalar.addi arg0 c50_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c100_i32 : BitVec 32 := 100#32
  let v0 : BitVec 32 := Scalar.addi arg0 c100_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c150_i32 : BitVec 32 := 150#32
  let v0 : BitVec 32 := Scalar.addi arg0 c150_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c200_i32 : BitVec 32 := 200#32
  let v0 : BitVec 32 := Scalar.addi arg0 c200_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S40x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S10000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5x40x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S5x2000x128_S10000x128 : S5x2000x128.ShapeCasts S10000x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S40x10000_S40x10000_0_0 : ∀ a, (![0, 0] : Fin 2 → Nat) a + S40x10000.size a ≤ S40x10000.size a
  h_S40x10000 : 0 < S40x10000.numel
  h_S40x128 : 0 < S40x128.numel
  inb_S5x40x128_S1x40x128_0_0_0 : ∀ a, (![0, 0, 0] : Fin 3 → Nat) a + S1x40x128.size a ≤ S5x40x128.size a
  h_S1x40x128 : 0 < S1x40x128.numel
  shapeCasts_S1x40x128_S40x128 : S1x40x128.ShapeCasts S40x128
  shapeCasts_S40x128_S1x40x128 : S40x128.ShapeCasts S1x40x128
  inb_S5x40x128_S1x40x128_1_0_0 : ∀ a, (![1, 0, 0] : Fin 3 → Nat) a + S1x40x128.size a ≤ S5x40x128.size a
  inb_S5x40x128_S1x40x128_2_0_0 : ∀ a, (![2, 0, 0] : Fin 3 → Nat) a + S1x40x128.size a ≤ S5x40x128.size a
  inb_S5x40x128_S1x40x128_3_0_0 : ∀ a, (![3, 0, 0] : Fin 3 → Nat) a + S1x40x128.size a ≤ S5x40x128.size a
  inb_S5x40x128_S1x40x128_4_0_0 : ∀ a, (![4, 0, 0] : Fin 3 → Nat) a + S1x40x128.size a ≤ S5x40x128.size a
  dot_S10000x128_S128x128_S10000x128_1_0_0_1_n_n_wf : DotDims.WF S10000x128 S128x128 S10000x128 [1] [0] [0] [1] [] []
  dot_S40x10000_S10000x128_S40x128_1_0_0_1_n_n_wf : DotDims.WF S40x10000 S10000x128 S40x128 [1] [0] [0] [1] [] []
  dot_S40x128_S128x128_S40x128_1_0_0_1_n_n_wf : DotDims.WF S40x128 S128x128 S40x128 [1] [0] [0] [1] [] []
  hrank0 : 0 < grid0.rank
  k0_off1_inb : ∀ i : grid0.Coords, ∀ (r : Fin 5), ∀ a, (k0_off1 i (BitVec.ofNat 32 (2000 * r.val))) a + S40x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x10000.size a ≤ S10000x10000.size a
  hwx0_0 : ∀ i : grid0.Coords, EltTy.bits .f32 = 32 ∨ (Rect.block (s := S10000x10000) S40x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x10000.size a ≤ S10000x10000.size a
  hwx0_1 : ∀ i : grid0.Coords, EltTy.bits .f32 = 32 ∨ (Rect.block (s := S10000x10000) S40x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S40x10000.size a ≤ S10000x10000.size a
  hwx0_2 : ∀ i : grid0.Coords, EltTy.bits .f32 = 32 ∨ (Rect.block (s := S10000x10000) S40x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S40x10000.size a ≤ S10000x10000.size a
  hwx0_3 : ∀ i : grid0.Coords, EltTy.bits .f32 = 32 ∨ (Rect.block (s := S10000x10000) S40x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S40x10000.size a ≤ S10000x10000.size a
  hwx0_4 : ∀ i : grid0.Coords, EltTy.bits .f32 = 32 ∨ (Rect.block (s := S10000x10000) S40x10000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S10000x128.size a
  hwx0_5 : ∀ i : grid0.Coords, EltTy.bits .f32 = 32 ∨ (Rect.block (s := S10000x128) S10000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5x40x128.size a ≤ S5x2000x128.size a
  hwx0_8 : ∀ i : grid0.Coords, EltTy.bits .f32 = 32 ∨ (Rect.block (s := S5x2000x128) S5x40x128.size (cc0_transform_8 i) (hinb0_8 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S40x10000_S10000x128_S40x128_1_0_0_1_n_n : DotDims S40x10000 S10000x128 S40x128 where
  lhsContracting := [1]
  rhsContracting := [0]
  lhsNonContracting := [0]
  rhsNonContracting := [1]
  lhsBatch := []
  rhsBatch := []
  wf := dot_S40x10000_S10000x128_S40x128_1_0_0_1_n_n_wf
def dot_S40x128_S128x128_S40x128_1_0_0_1_n_n : DotDims S40x128 S128x128 S40x128 where
  lhsContracting := [1]
  rhsContracting := [0]
  lhsNonContracting := [0]
  rhsNonContracting := [1]
  lhsBatch := []
  rhsBatch := []
  wf := dot_S40x128_S128x128_S40x128_1_0_0_1_n_n_wf

abbrev win0_0 : Pipeline.Window sig grid0 :=
  Pipeline.Window.ofSpec (Memref.whole main_arg1) S40x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S40x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S40x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S40x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S40x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S10000x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v0) S5x40x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x10000, .i32⟩
  | .hbm, ⟨6, _⟩ => ⟨S10000x10000, .i32⟩
  | .hbm, ⟨7, _⟩ => ⟨S_, .i32⟩
  | .hbm, ⟨8, _⟩ => ⟨S10000x10000, .i32⟩
  | .hbm, ⟨9, _⟩ => ⟨S10000x10000, .i32⟩
  | .hbm, ⟨10, _⟩ => ⟨S10000x10000, .i1⟩
  | .hbm, ⟨11, _⟩ => ⟨S10000x10000, .f32⟩
  | .hbm, ⟨12, _⟩ => ⟨S10000x10000, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Runs.lean ====
/-
  What the two runs of the kernel body share: the body's one branch — it computes the support x·W into the
  scratch buffer exactly at the grid's first point — decided over the grid, and the names of the staging and
  scratch memrefs the pipeline calls the body with.
-/
import proofs.«105982_g56341380989462_cont_9to1_m_248_13_alg».proof.Proof.Gen.Kernel.Launch
import proofs.«105982_g56341380989462_cont_9to1_m_248_13_alg».proof.Proof.Gen.Kernel.Skeleton
import proofs.«105982_g56341380989462_cont_9to1_m_248_13_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition as the printed scalar chain over the grid coordinate. -/
abbrev cond0 (i : grid0.Coords) : Prop := (Scalar.cmpi .ne (Scalar.extui (Scalar.cmpi .eq (BitVec.ofNat 32 (i 0).val) 0#32)) 0#32) = 1#1

/-- It holds at the first point and at no other. -/
theorem hcond0 : ∀ t : Fin cfg0.N, cond0 (grid0.coords t) ↔ t.val = 0 :=
  (by decide +kernel : ∀ t : Fin grid0.N, cond0 (grid0.coords t) ↔ t.val = 0)

/-- The scratch operand: a whole scoped buffer of the kernel's own, holding the support between points. -/
abbrev scM : Memref sig .tc .vmem S10000x128 .f32 := Memref.whole cc0_scratch0
abbrev VS : View sig .tc .vmem S10000x128 .f32 := (scM).view
/-- One staging buffer of the output window, through which its contents are stated. -/
abbrev VO : View sig .tc .vmem S5x40x128 .f32 := (Memref.whole cc0_stg8_0 : Memref sig .tc .vmem S5x40x128 .f32).view

end Cert.Kernel.Hand

end
-- ==== Proof.K.RunA.lean ====
/-
  The kernel body at the grid's first point. The branch is taken: the body loads x and W whole, stores their
  product — the support — over the whole scratch buffer, and then goes on exactly as at every other point,
  reading the support back from the scratch. Two lists of pieces are found: the output's five and the scratch's one.
-/
import proofs.«105982_g56341380989462_cont_9to1_m_248_13_alg».proof.Proof.K.Runs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging memref and in the scratch at the first point, with the
    proof that on whole staging memrefs — the inputs at their contents, the output and the scratch at anything — the
    body runs to the continuation holding the inputs as they were and both buffers with their pieces written. -/
noncomputable def kernelRunA (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S5x40x128 .f32) (harg9 : arg9.IsWhole) (arg10 : Memref sig .tc .vmem S10000x128 .f32) (harg10 : arg10.IsWhole) (hc : cond0 i)
    (x1 x2 x3 x4 x5 : Vec F S40x10000 .f32) (x6 : Vec F S10000x128 .f32) (x7 x8 : Vec F S128x128 .f32) :
    Σ' (L9 : List (View.Piece (Elt F) S5x40x128 .f32)), { LS : List (View.Piece (Elt F) S10000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS)) -∗ K ⟨⟩))
          ⊢ wp frame (wpE (defs₀ (F := F)) Variants.none c none) E (cc0__k i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__k_eq_skeleton]; unfold cc0__k_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds, %fs, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact HS

end Cert.Kernel.Hand

end
-- ==== Proof.K.RunB.lean ====
/-
  The kernel body at a point after the first. The branch is not taken: the scratch still holds what the first
  point stored, the body reads it whole (the right factor of five products) and by five row blocks, and stores
  five 1×40×128 pieces that tile the output block. The pieces are what the run finds.
-/
import proofs.«105982_g56341380989462_cont_9to1_m_248_13_alg».proof.Proof.K.Runs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's five stores leave in the output's staging memref at a later point, with the proof that on
    whole staging memrefs — the inputs at their contents, the output at anything, the scratch at `xs` — the body
    runs to the continuation holding the inputs and the scratch as they were and the output with its pieces written. -/
noncomputable def kernelRunB (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S5x40x128 .f32) (harg9 : arg9.IsWhole) (arg10 : Memref sig .tc .vmem S10000x128 .f32) (harg10 : arg10.IsWhole) (hc : ¬cond0 i)
    (x1 x2 x3 x4 x5 : Vec F S40x10000 .f32) (x6 : Vec F S10000x128 .f32) (x7 x8 : Vec F S128x128 .f32) (xs : Vec F S10000x128 .f32) :
    { L9 : List (View.Piece (Elt F) S5x40x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ owns (c : Thread nD τ) arg10 fullShare xs) -∗ K ⟨⟩))
          ⊢ wp frame (wpE (defs₀ (F := F)) Variants.none c none) E (cc0__k i arg1 harg1 arg2 harg2 arg3 harg3 arg4 harg4 arg5 harg5 arg6 harg6 arg7 harg7 arg8 harg8 arg9 harg9 arg10 harg10) K } := by
  refine ⟨?_, fun E K => ?run⟩
  case run =>
    simp only [cc0__k_eq_skeleton]; unfold cc0__k_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    obtain rfl := harg10.eq_unread hfs
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; isplitr; · ipureintro; exact harg10.read_unread _
    iexact HS

end Cert.Kernel.Hand

end
-- ==== Proof.K.Data.lean ====
/-
  The pipeline's proof data and the body obligation.

  What the windows hold: each input window's current buffer holds its array's block at the point (five row blocks of
  the adjacency, 40 rows each, one per fifth of the nodes; x, W and the self-weights whole); the output window's
  buffer holds, after the body, the five 1×40×128 pieces the body stored. What the kernel keeps between points: the
  scratch buffer holds the support x·W from the first point on — the first point stores it, every later point only
  reads it — so the region invariant is "the scratch at anything" before the first point and "the scratch at the
  support" afterwards, the generator register at some state throughout.
-/
import proofs.«105982_g56341380989462_cont_9to1_m_248_13_alg».proof.Proof.K.RunA
import proofs.«105982_g56341380989462_cont_9to1_m_248_13_alg».proof.Proof.K.RunB
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The TensorCore's buffers as the region finds them: no host operation runs before it, so they are the launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it to the body, and its wholeness. -/
abbrev ms0 (t : Fin cfg0.N) : Memref sig .tc .vmem S40x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S40x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S40x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S40x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S40x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S10000x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S5x40x128 .f32 := win0_8.stage (cfg0.slots t 8)
abbrev hs8 (t : Fin cfg0.N) : (ms8 t).IsWhole := hstage0_8 ((cfg0.slots t 8).cast nbuf0_8)

/-- The grid's first point. -/
abbrev t0 : Fin cfg0.N := ⟨0, by decide⟩

/-- An input window's current buffer holds its block at every point, fetched there or not, for any proof data whose
    array is the region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The body's run at a first point. -/
abbrev runAt (c : Dev nD) (t : Fin cfg0.N) (h : t.val = 0) :=
  kernelRunA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcond0 t).mpr h) (iblk m c 0 t) (iblk m c 1 t) (iblk m c 2 t) (iblk m c 3 t) (iblk m c 4 t) (iblk m c 5 t) (iblk m c 6 t) (iblk m c 7 t)

/-- THE SUPPORT as the kernel holds it: what the first point's one whole-buffer store leaves in the scratch. -/
def supp (c : Dev nD) : Vec F S10000x128 .f32 :=
  VS.read (Elt F) (VS.writes (Elt F) VS.junk (runAt m c t0 rfl).2.1)

/-- That store covers the scratch. -/
theorem scover (c : Dev nD) (y : S10000x128.Idx) : ∃ pc ∈ (runAt m c t0 rfl).2.1, y ∈ pc.1.set :=
  View.cover_of_tiledL (runAt m c t0 rfl).2.1 S10000x128.size (by sl_kernel_rfl) y

/-- The body's run at a later point, the scratch holding the support. -/
abbrev runBt (c : Dev nD) (t : Fin cfg0.N) (h : ¬t.val = 0) :=
  kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun hc => h ((hcond0 t).mp hc)) (iblk m c 0 t) (iblk m c 1 t) (iblk m c 2 t) (iblk m c 3 t) (iblk m c 4 t) (iblk m c 5 t) (iblk m c 6 t) (iblk m c 7 t) (supp m c)

/-- The five stores tile the output block, at the first point and at the others. -/
theorem ocoverA (c : Dev nD) (t : Fin cfg0.N) (h : t.val = 0) (y : S5x40x128.Idx) : ∃ pc ∈ (runAt m c t h).1, y ∈ pc.1.set :=
  View.cover_of_tiledL (runAt m c t h).1 S1x40x128.size (by sl_kernel_rfl) y
theorem ocoverB (c : Dev nD) (t : Fin cfg0.N) (h : ¬t.val = 0) (y : S5x40x128.Idx) : ∃ pc ∈ (runBt m c t h).1, y ∈ pc.1.set :=
  View.cover_of_tiledL (runBt m c t h).1 S1x40x128.size (by sl_kernel_rfl) y

/-- What the body leaves in the output's staging buffer at point `t`: its pieces read back. -/
def outAt (c : Dev nD) (t : Fin cfg0.N) : Vec F S5x40x128 .f32 :=
  if h : t.val = 0 then VO.read (Elt F) (VO.writes (Elt F) VO.junk (runAt m c t h).1)
  else VO.read (Elt F) (VO.writes (Elt F) VO.junk (runBt m c t h).1)

theorem outAt_first (c : Dev nD) (t : Fin cfg0.N) (h : t.val = 0) :
    outAt m c t = VO.read (Elt F) (VO.writes (Elt F) VO.junk (runAt m c t h).1) := dif_pos h
theorem outAt_later (c : Dev nD) (t : Fin cfg0.N) (h : ¬t.val = 0) :
    outAt m c t = VO.read (Elt F) (VO.writes (Elt F) VO.junk (runBt m c t h).1) := dif_neg h

/-- The region invariant before position `n`: before the first point the scratch at anything; afterwards at the
    support; the generator register at some state. -/
def PhiS (c : Dev nD) : ℕ → sProp 𝕄
  | 0 => Pipeline.ΦA spec0 c
  | _ + 1 => iprop(iprop(owns (c : Thread nD τ) scM fullShare (supp m c)) ∗ (∃ r, prngReg c r))

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem PhiS_pos (c : Dev nD) (n : ℕ) (hz : n ≠ 0) :
    PhiS m c n = iprop(iprop(owns (c : Thread nD τ) scM fullShare (supp m c)) ∗ (∃ r, prngReg c r)) := by
  cases n with
  | zero => exact absurd rfl hz
  | succ n => rfl

/-- The shares of the adjacency the five row-block windows hold: a full share cut in five. -/
abbrev adjShare : Fin 5 → PosShare TreeShare
  | 0 => fullShare.left
  | 1 => fullShare.right.left
  | 2 => fullShare.right.right.left
  | 3 => fullShare.right.right.right.left
  | 4 => fullShare.right.right.right.right

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val
  q w := match w with
    | ⟨0, _⟩ => adjShare 0
    | ⟨1, _⟩ => adjShare 1
    | ⟨2, _⟩ => adjShare 2
    | ⟨3, _⟩ => adjShare 3
    | ⟨4, _⟩ => adjShare 4
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point: the inputs' buffers hold their blocks; at the first point the scratch is handed over at
    anything and taken back at the support, at a later point handed over and taken back at the support; the output's
    buffer is taken back with the five pieces written; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [show (dats m 0 c).Φ t.castSucc = PhiS m c t.val from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from rfl, after5]
  rw [show (dats m 0 c).leavesExact 6 t = owns (c : Thread nD τ) (ms6 t) fullShare ((dats m 0 c).after 6 t) from rfl, after6]
  rw [show (dats m 0 c).leavesExact 7 t = owns (c : Thread nD τ) (ms7 t) fullShare ((dats m 0 c).after 7 t) from rfl, after7]
  rw [show (dats m 0 c).leavesExact 8 t = owns (c : Thread nD τ) (ms8 t) fullShare ((dats m 0 c).after 8 t) from rfl, after8]
  by_cases hz : t.val = 0
  · rw [outAt_first m c t hz]
    rw [show PhiS m c t.val = Pipeline.ΦA spec0 c from by rw [hz]; rfl, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runAt m c t hz).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%e8, H8⟩, ⟨%es, HS⟩⟩
    isplitl [HS Hg]
    · isplitl [HS]
      · unfold owns; iexists _; isplitr
        swap; · iexact HS
        ipureintro
        obtain rfl : t = t0 := Fin.ext hz
        exact View.read_writes_of_cover _ _ _ _ _ (scover m c)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (ocoverA m c t hz)
  · rw [outAt_later m c t hz]
    rw [PhiS_pos m c t.val hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runBt m c t hz).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%e8, H8⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (ocoverB m c t hz)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem Phi_in (c : Dev nD) : Pipeline.ΦA spec0 c ⊢ (dats m 0 c).Φ 0 := by
  rw [show (dats m 0 c).Φ 0 = PhiS m c 0 from rfl]
  exact Idealize.SL.BI.Entails.refl _

/-- and after the last point the invariant gives it back: the support's name is forgotten. -/
theorem Phi_out (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 50 := N_0; omega), PhiA_eq]
  iintro ⟨HS, Hg⟩
  isplitl [HS]
  · iexists _; iexact HS
  iexact Hg

/-! ## What the run leaves -/

/-- The output array (five fifths of the nodes × 2000 rows × 128 features) after the run, as the write-backs of the
    fifty points assemble it from what the body left at each. -/
def finalOut (c : Dev nD) : Vec F S5x2000x128 .f32 := (dats m 0 c).arrAt 8 cfg0.N

/-- The program's result: that array's rows laid end to end, fifth after fifth. -/
def result (c : Dev nD) : Vec F S10000x128 .f32 := shapeCast S10000x128 (finalOut m c) shapeCasts_S5x2000x128_S10000x128

end Cert.Kernel.Hand

end
-- ==== Proof.K.Launch.lean ====
/-
  The launch: @main is the kernel region followed by one host operation (the reshape of the 5×2000×128 output to
  10000×128). The adjacency is handed to the kernel through FIVE windows (one per fifth of the nodes), so at the
  region's entry its buffer, held whole, is split into five shares, one per window; the other arguments are held
  whole by their one window, the output array whole by its own. After the region the output array holds what the
  fifty write-backs assembled; the reshape copies it into the result buffer; every argument array is read back, at
  whatever share it is held, as it was at launch.
-/
import proofs.«105982_g56341380989462_cont_9to1_m_248_13_alg».proof.Proof.K.Data
import Idealize.ShloMosaic.Lib.Pipeline.Regions
import Idealize.ShloMosaic.Lib.StableHlo.Run
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none

/-- A buffer held whole at contents `f`. -/
abbrev pt (c : Dev nD) (b : Ref sig .tc) (q : PosShare TreeShare) (f : Buf (Elt F) ((c : Thread nD τ).loc b)) : sProp 𝕄 :=
  ((c : Thread nD τ).loc b) ↦{q} f

/-! ## One full share cut in five -/

theorem share_split (c : Dev nD) (b : Ref sig .tc) (f : Buf (Elt F) ((c : Thread nD τ).loc b)) :
    pt c b fullShare f ⊢ iprop(pt c b (adjShare 0) f ∗ pt c b (adjShare 1) f ∗ pt c b (adjShare 2) f ∗ pt c b (adjShare 3) f ∗ pt c b (adjShare 4) f) := by
  iintro H
  ihave H := (pointsTo_share (PosShare.mem_left_op_right fullShare)).1 $$ H
  icases H with ⟨H0, H⟩
  ihave H := (pointsTo_share (PosShare.mem_left_op_right fullShare.right)).1 $$ H
  icases H with ⟨H1, H⟩
  ihave H := (pointsTo_share (PosShare.mem_left_op_right fullShare.right.right)).1 $$ H
  icases H with ⟨H2, H⟩
  ihave H := (pointsTo_share (PosShare.mem_left_op_right fullShare.right.right.right)).1 $$ H
  icases H with ⟨H3, H4⟩
  isplitl [H0]; · iexact H0
  isplitl [H1]; · iexact H1
  isplitl [H2]; · iexact H2
  isplitl [H3]; · iexact H3
  iexact H4

/-! ## The buffers behind the windows, and the windows' arrays, listed -/

/-- The five distinct buffers behind the nine windows. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop(pt c main_arg1 fullShare (W main_arg1) ∗ pt c main_arg0 fullShare (W main_arg0) ∗ pt c main_arg2 fullShare (W main_arg2)
          ∗ pt c main_arg3 fullShare (W main_arg3) ∗ pt c main_call0_v0 fullShare (W main_call0_v0)) := by
  unfold Pipeline.arrBufs
  rw [bigSep_eq_bigSepL_of_eq [main_arg1, main_arg0, main_arg2, main_arg3, main_call0_v0] (by decide) (by decide)]
  rfl

/-- The share the proof data gives each window, and each window's array as a points-to at it. -/
theorem share0 (c : Dev nD) : (dats m 0 c).share 0 = (adjShare 0) := by
  unfold Dat.share
  dsimp only [dats]
  rfl
theorem arr0 (c : Dev nD) (A : (w : Fin cfg0.W) → Buf (Elt F) ((cfg0.win w).arr.view.loc (c : Thread nD τ))) :
    ((cfg0.win 0).arr.view.loc (c : Thread nD τ) ↦[(cfg0.win 0).arr.view.set]{(dats m 0 c).share 0} A 0 : sProp 𝕄) = pt c main_arg1 (adjShare 0) (A 0) := by
  rw [share0, (arr_whole0 0).set_eq_univ]
theorem share1 (c : Dev nD) : (dats m 0 c).share 1 = (adjShare 1) := by
  unfold Dat.share
  dsimp only [dats]
  rfl
theorem arr1 (c : Dev nD) (A : (w : Fin cfg0.W) → Buf (Elt F) ((cfg0.win w).arr.view.loc (c : Thread nD τ))) :
    ((cfg0.win 1).arr.view.loc (c : Thread nD τ) ↦[(cfg0.win 1).arr.view.set]{(dats m 0 c).share 1} A 1 : sProp 𝕄) = pt c main_arg1 (adjShare 1) (A 1) := by
  rw [share1, (arr_whole0 1).set_eq_univ]
theorem share2 (c : Dev nD) : (dats m 0 c).share 2 = (adjShare 2) := by
  unfold Dat.share
  dsimp only [dats]
  rfl
theorem arr2 (c : Dev nD) (A : (w : Fin cfg0.W) → Buf (Elt F) ((cfg0.win w).arr.view.loc (c : Thread nD τ))) :
    ((cfg0.win 2).arr.view.loc (c : Thread nD τ) ↦[(cfg0.win 2).arr.view.set]{(dats m 0 c).share 2} A 2 : sProp 𝕄) = pt c main_arg1 (adjShare 2) (A 2) := by
  rw [share2, (arr_whole0 2).set_eq_univ]
theorem share3 (c : Dev nD) : (dats m 0 c).share 3 = (adjShare 3) := by
  unfold Dat.share
  dsimp only [dats]
  rfl
theorem arr3 (c : Dev nD) (A : (w : Fin cfg0.W) → Buf (Elt F) ((cfg0.win w).arr.view.loc (c : Thread nD τ))) :
    ((cfg0.win 3).arr.view.loc (c : Thread nD τ) ↦[(cfg0.win 3).arr.view.set]{(dats m 0 c).share 3} A 3 : sProp 𝕄) = pt c main_arg1 (adjShare 3) (A 3) := by
  rw [share3, (arr_whole0 3).set_eq_univ]
theorem share4 (c : Dev nD) : (dats m 0 c).share 4 = (adjShare 4) := by
  unfold Dat.share
  dsimp only [dats]
  rfl
theorem arr4 (c : Dev nD) (A : (w : Fin cfg0.W) → Buf (Elt F) ((cfg0.win w).arr.view.loc (c : Thread nD τ))) :
    ((cfg0.win 4).arr.view.loc (c : Thread nD τ) ↦[(cfg0.win 4).arr.view.set]{(dats m 0 c).share 4} A 4 : sProp 𝕄) = pt c main_arg1 (adjShare 4) (A 4) := by
  rw [share4, (arr_whole0 4).set_eq_univ]
theorem share5 (c : Dev nD) : (dats m 0 c).share 5 = (fullShare) := by
  unfold Dat.share
  dsimp only [dats]
  rfl
theorem arr5 (c : Dev nD) (A : (w : Fin cfg0.W) → Buf (Elt F) ((cfg0.win w).arr.view.loc (c : Thread nD τ))) :
    ((cfg0.win 5).arr.view.loc (c : Thread nD τ) ↦[(cfg0.win 5).arr.view.set]{(dats m 0 c).share 5} A 5 : sProp 𝕄) = pt c main_arg0 (fullShare) (A 5) := by
  rw [share5, (arr_whole0 5).set_eq_univ]
theorem share6 (c : Dev nD) : (dats m 0 c).share 6 = (fullShare) := by
  unfold Dat.share
  dsimp only [dats]
  rfl
theorem arr6 (c : Dev nD) (A : (w : Fin cfg0.W) → Buf (Elt F) ((cfg0.win w).arr.view.loc (c : Thread nD τ))) :
    ((cfg0.win 6).arr.view.loc (c : Thread nD τ) ↦[(cfg0.win 6).arr.view.set]{(dats m 0 c).share 6} A 6 : sProp 𝕄) = pt c main_arg2 (fullShare) (A 6) := by
  rw [share6, (arr_whole0 6).set_eq_univ]
theorem share7 (c : Dev nD) : (dats m 0 c).share 7 = (fullShare) := by
  unfold Dat.share
  dsimp only [dats]
  rfl
theorem arr7 (c : Dev nD) (A : (w : Fin cfg0.W) → Buf (Elt F) ((cfg0.win w).arr.view.loc (c : Thread nD τ))) :
    ((cfg0.win 7).arr.view.loc (c : Thread nD τ) ↦[(cfg0.win 7).arr.view.set]{(dats m 0 c).share 7} A 7 : sProp 𝕄) = pt c main_arg3 (fullShare) (A 7) := by
  rw [share7, (arr_whole0 7).set_eq_univ]
theorem share8 (c : Dev nD) : (dats m 0 c).share 8 = (fullShare) := by
  unfold Dat.share
  dsimp only [dats]
  rfl
theorem arr8 (c : Dev nD) (A : (w : Fin cfg0.W) → Buf (Elt F) ((cfg0.win w).arr.view.loc (c : Thread nD τ))) :
    ((cfg0.win 8).arr.view.loc (c : Thread nD τ) ↦[(cfg0.win 8).arr.view.set]{(dats m 0 c).share 8} A 8 : sProp 𝕄) = pt c main_call0_v0 (fullShare) (A 8) := by
  rw [share8, (arr_whole0 8).set_eq_univ]

/-- The pipeline's arrays, window by window, each at the share its window holds. -/
theorem arrays_eq9 (c : Dev nD) (A : (w : Fin cfg0.W) → Buf (Elt F) ((cfg0.win w).arr.view.loc (c : Thread nD τ))) :
    ((dats m 0 c).arrays A : sProp 𝕄)
      = iprop(pt c main_arg1 (adjShare 0) (A 0) ∗ pt c main_arg1 (adjShare 1) (A 1) ∗ pt c main_arg1 (adjShare 2) (A 2)
          ∗ pt c main_arg1 (adjShare 3) (A 3) ∗ pt c main_arg1 (adjShare 4) (A 4)
          ∗ pt c main_arg0 fullShare (A 5) ∗ pt c main_arg2 fullShare (A 6) ∗ pt c main_arg3 fullShare (A 7)
          ∗ pt c main_call0_v0 fullShare (A 8)) := by
  unfold Dat.arrays
  rw [bigSep_W0]
  exact congrArg₂ _ (arr0 m c A) (congrArg₂ _ (arr1 m c A) (congrArg₂ _ (arr2 m c A) (congrArg₂ _ (arr3 m c A) (congrArg₂ _ (arr4 m c A)
    (congrArg₂ _ (arr5 m c A) (congrArg₂ _ (arr6 m c A) (congrArg₂ _ (arr7 m c A) (arr8 m c A))))))))

/-- The input windows' arrays at the launch contents, each at its share: what rides past the reshape to the end. -/
def inArrs (c : Dev nD) : sProp 𝕄 :=
  iprop(pt c main_arg1 (adjShare 0) (V m c main_arg1) ∗ pt c main_arg1 (adjShare 1) (V m c main_arg1) ∗ pt c main_arg1 (adjShare 2) (V m c main_arg1)
    ∗ pt c main_arg1 (adjShare 3) (V m c main_arg1) ∗ pt c main_arg1 (adjShare 4) (V m c main_arg1)
    ∗ pt c main_arg0 fullShare (V m c main_arg0) ∗ pt c main_arg2 fullShare (V m c main_arg2) ∗ pt c main_arg3 fullShare (V m c main_arg3))

/-- What rides beside the buffers throughout: the generator register at some state, and that the core owes nothing. -/
abbrev Rr (c : Dev nD) : sProp 𝕄 :=
  iprop((∃ r, prngReg c r) ∗ ∃ W, owes (c : Thread nD τ) (0 : CellTallies nD τ sig Unit) W)

/-! ## After the region: the reshape -/

/-- The two buffers the reshape touches. -/
abbrev tailBufs : Finset (DevRef τ sig) := {Proc.devRef .tc main_call0_v0, Proc.devRef .tc main_v0}

/-- The TensorCore's buffers when the region is left: the output array at what the run assembled, the rest as launched. -/
def V₁ (c : Dev nD) : Valuation τ sig (Elt F) :=
  Function.update (fun b => m ((c : Dev nD), b)) (Proc.devRef .tc main_call0_v0) (finalOut m c)

theorem V₁_out (c : Dev nD) : V₁ m c (Proc.devRef .tc main_call0_v0) = finalOut m c := by
  unfold V₁; rw [Function.update_self]

theorem V₁_res (c : Dev nD) : V₁ m c (Proc.devRef .tc main_v0) = m ((c : Dev nD), Proc.devRef .tc main_v0) := by
  unfold V₁; rw [Function.update_of_ne (by decide)]

theorem held_tail (c : Dev nD) (W : Valuation τ sig (Elt F)) :
    (StableHlo.held (c : Thread nD τ) tailBufs W : sProp 𝕄)
      = iprop(pt c main_call0_v0 fullShare (W (Proc.devRef .tc main_call0_v0)) ∗ pt c main_v0 fullShare (W (Proc.devRef .tc main_v0))) := by
  unfold StableHlo.held
  rw [bigSep_eq_bigSepL_of_eq [Proc.devRef .tc main_call0_v0, Proc.devRef .tc main_v0] (by decide) (by decide)]
  rfl

/-- After the reshape the result buffer holds the output array's rows laid end to end. -/
theorem after_res (c : Dev nD) :
    StableHlo.after (hostOps1 (F := F)) (V₁ m c) (Proc.devRef .tc main_v0) = result m c := by
  after_results
  rw [V₁_out]
  rfl

/-- THE HOST SEGMENT: the reshape over its two buffers, everything else riding along. -/
def seg1 : Pipeline.HostSeg (Name := ℕ) (U := UR sig nD τ) (pcfgs (F := F)) defs₀ 𝒱₀ L lv :=
  Pipeline.HostSeg.ofOps _ _ _ _ _ tailBufs hostOps1
    (by intro op h; simp only [hostOps1, List.mem_singleton] at h; subst h; exact Finset.Subset.refl _)
    (by intro _ h; (repeat (cases h with | head => rfl | tail _ h => ?_)); exact nomatch h)
    (V₁ m) (fun c => iprop(inArrs m c ∗ Rr c))

/-! ## The region -/

set_option backward.isDefEq.respectTransparency.types false in
/-- THE REGION: entered from the launch's buffers — the adjacency cut in five shares among its windows, the other
    arguments and the output array to their windows, the result buffer bypassing, the generator register into the
    invariant —, left with the output array at what the write-backs assembled, ready for the reshape. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(unscopedBufs c (V m c) ∗ Rr c)
  post c := iprop(StableHlo.held (c : Thread nD τ) tailBufs (V₁ m c) ∗ inArrs m c ∗ Rr c)
  X c := iprop(∃ r, prngReg c r)
  Y c := iprop(∃ r, prngReg c r)
  Z c := pt c main_v0 fullShare (V m c main_v0)
  hentry c := by
    rw [Pipeline.unscopedBufs_split₀ (cfgs) 0 winFacts₀0.arr_unscoped c (V m c), arrBufs_eq, unscopedRest0_eq, arrays_eq9]
    iintro ⟨⟨⟨⟨H1, H0, H2, H3, H8⟩, Hv⟩, Hp, HO⟩, -, -⟩
    ihave H1 := (share_split c main_arg1 (V m c main_arg1)) $$ H1
    icases H1 with ⟨Ha, Hb, Hc, Hd, He⟩
    imodintro
    isplitl [Ha Hb Hc Hd He H0 H2 H3 H8]
    · isplitl [Ha]; · iexact Ha
      isplitl [Hb]; · iexact Hb
      isplitl [Hc]; · iexact Hc
      isplitl [Hd]; · iexact Hd
      isplitl [He]; · iexact He
      isplitl [H0]; · iexact H0
      isplitl [H2]; · iexact H2
      isplitl [H3]; · iexact H3
      iexact H8
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hv
  hin c :=
    (show _ ⊢ Pipeline.ΦA spec0 c from by
      unfold Pipeline.ΦA
      iintro ⟨Hp, -, Hr⟩
      isplitl [Hr] <;> iassumption).trans (Phi_in m c)
  hout c := by
    refine (Phi_out m c).trans ?_
    rw [Pipeline.ownSems0_none]; unfold Pipeline.ΦA
    iintro ⟨Hr, Hp⟩
    isplitl [Hp]; · iexact Hp
    isplitr; · iempintro
    iexact Hr
  hexit c := by
    rw [arrays_eq9, held_tail, V₁_out, V₁_res]
    rw [(dats m 0 c).arrAt_in 0 rfl, (dats m 0 c).arrAt_in 1 rfl, (dats m 0 c).arrAt_in 2 rfl, (dats m 0 c).arrAt_in 3 rfl,
      (dats m 0 c).arrAt_in 4 rfl, (dats m 0 c).arrAt_in 5 rfl, (dats m 0 c).arrAt_in 6 rfl, (dats m 0 c).arrAt_in 7 rfl]
    iintro ⟨⟨Ha, Hb, Hc, Hd, He, H0, H2, H3, H8⟩, HO, Hp, Hv⟩
    imodintro
    isplitl [H8 Hv]
    · isplitl [H8]; · iexact H8
      iexact Hv
    isplitl [Ha Hb Hc Hd He H0 H2 H3]
    · unfold inArrs
      isplitl [Ha]; · iexact Ha
      isplitl [Hb]; · iexact Hb
      isplitl [Hc]; · iexact Hc
      isplitl [Hd]; · iexact Hd
      isplitl [He]; · iexact He
      isplitl [H0]; · iexact H0
      isplitl [H2]; · iexact H2
      iexact H3
    isplitl [Hp]; · iexact Hp
    unfold Pipeline.Dat.owesAt Pipeline.owesWithin
    icases HO with ⟨%W, -, HO⟩; iexists W; iexact HO

/-- @main as the list of the two. -/
abbrev segs : List (Pipeline.Seg (pcfgs (F := F)) adm (dats m) () defs₀ 𝒱₀ L lv) := [.region (reg0 m), .host (seg1 m)]

/-- What is left at the end: the reshape's two buffers, the input arrays at their shares, the generator register. -/
abbrev Tₙ (c : Dev nD) : sProp 𝕄 :=
  iprop(StableHlo.held (c : Thread nD τ) tailBufs (StableHlo.after hostOps1 (V₁ m c)) ∗ inArrs m c ∗ ∃ r, prngReg c r)

set_option backward.isDefEq.respectTransparency.types false in
/-- At the compiled mesh, for any float values, from any memory with zero counters: every weakly fair execution of @main on
    the TensorCores terminates, and every final state has the result buffer at the output array's rows laid end to end and
    the four argument arrays as launched. -/
theorem run_main : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ Rr c)) (Tₙ := Tₙ m)
    (hch := ⟨fun _ => .rfl, fun _ => .rfl, fun c => by
      refine (show iprop(StableHlo.held (c : Thread nD τ) tailBufs (StableHlo.after hostOps1 (V₁ m c)) ∗ (inArrs m c ∗ Rr c)) ⊢ _ from ?_)
      iintro ⟨Hh, Hi, Hp, HO⟩
      isplitr [HO]
      · isplitl [Hh]; · iexact Hh
        isplitl [Hi]; · iexact Hi
        iexact Hp
      · iexact HO⟩)
    (hinit := by
      refine Pipeline.initEach L lv fun c => ?_
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v0) = result m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => by
      dsimp only [Tₙ]; rw [held_tail, after_res]; unfold inArrs
      iintro ⟨⟨⟨H8, Hv⟩, ⟨Ha, Hb, Hc, Hd, He, H0, H2, H3⟩, -⟩, HSI⟩
      icombine HSI Hv gives %hv
      icombine HSI H0 gives %h0
      icombine HSI Ha gives %h1
      icombine HSI H2 gives %h2
      icombine HSI H3 gives %h3
      imodintro
      isplitr
      · ipureintro
        exact ⟨Buf.eq_of_forall_mem_univ hv, Buf.eq_of_forall_mem_univ h0, Buf.eq_of_forall_mem_univ h1,
          Buf.eq_of_forall_mem_univ h2, Buf.eq_of_forall_mem_univ h3⟩
      iexact HSI)
    (hQ := fun _ h => h)

end Cert.Kernel.Hand

end
-- ==== Proof.KI.Runs.lean ====
/-
  What the two runs of the kernel body share: the body's one branch — it computes the support x·W into the
  scratch buffer exactly at the grid's first point — decided over the grid, and the names of the staging and
  scratch memrefs the pipeline calls the body with.
-/
import proofs.«105982_g56341380989462_cont_9to1_m_248_13_alg».proof.Proof.Gen.KernelIdeal.Launch
import proofs.«105982_g56341380989462_cont_9to1_m_248_13_alg».proof.Proof.Gen.KernelIdeal.Skeleton
import proofs.«105982_g56341380989462_cont_9to1_m_248_13_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition as the printed scalar chain over the grid coordinate. -/
abbrev cond0 (i : grid0.Coords) : Prop := (Scalar.cmpi .ne (Scalar.extui (Scalar.cmpi .eq (BitVec.ofNat 32 (i 0).val) 0#32)) 0#32) = 1#1

/-- It holds at the first point and at no other. -/
theorem hcond0 : ∀ t : Fin cfg0.N, cond0 (grid0.coords t) ↔ t.val = 0 :=
  (by decide +kernel : ∀ t : Fin grid0.N, cond0 (grid0.coords t) ↔ t.val = 0)

/-- The scratch operand: a whole scoped buffer of the kernel's own, holding the support between points. -/
abbrev scM : Memref sig .tc .vmem S10000x128 .f32 := Memref.whole cc0_scratch0
abbrev VS : View sig .tc .vmem S10000x128 .f32 := (scM).view
/-- One staging buffer of the output window, through which its contents are stated. -/
abbrev VO : View sig .tc .vmem S5x40x128 .f32 := (Memref.whole cc0_stg8_0 : Memref sig .tc .vmem S5x40x128 .f32).view

end Cert.KernelIdeal.Hand

end
-- ==== Proof.KI.RunA.lean ====
/-
  The kernel body at the grid's first point. The branch is taken: the body loads x and W whole, stores their
  product — the support — over the whole scratch buffer, and then goes on exactly as at every other point,
  reading the support back from the scratch. Two lists of pieces are found: the output's five and the scratch's one.
-/
import proofs.«105982_g56341380989462_cont_9to1_m_248_13_alg».proof.Proof.KI.Runs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging memref and in the scratch at the first point, with the
    proof that on whole staging memrefs — the inputs at their contents, the output and the scratch at anything — the
    body runs to the continuation holding the inputs as they were and both buffers with their pieces written. -/
noncomputable def kernelRunA (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S5x40x128 .f32) (harg9 : arg9.IsWhole) (arg10 : Memref sig .tc .vmem S10000x128 .f32) (harg10 : arg10.IsWhole) (hc : cond0 i)
    (x1 x2 x3 x4 x5 : Vec F S40x10000 .f32) (x6 : Vec F S10000x128 .f32) (x7 x8 : Vec F S128x128 .f32) :
    Σ' (L9 : List (View.Piece (Elt F) S5x40x128 .f32)), { LS : List (View.Piece (Elt F) S10000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS)) -∗ K ⟨⟩))
          ⊢ wp frame (wpE (defs₀ (F := F)) Variants.none c none) E (cc0__k i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__k_eq_skeleton]; unfold cc0__k_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds, %fs, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact HS

end Cert.KernelIdeal.Hand

end
-- ==== Proof.KI.RunB.lean ====
/-
  The kernel body at a point after the first. The branch is not taken: the scratch still holds what the first
  point stored, the body reads it whole (the right factor of five products) and by five row blocks, and stores
  five 1×40×128 pieces that tile the output block. The pieces are what the run finds.
-/
import proofs.«105982_g56341380989462_cont_9to1_m_248_13_alg».proof.Proof.KI.Runs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's five stores leave in the output's staging memref at a later point, with the proof that on
    whole staging memrefs — the inputs at their contents, the output at anything, the scratch at `xs` — the body
    runs to the continuation holding the inputs and the scratch as they were and the output with its pieces written. -/
noncomputable def kernelRunB (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S5x40x128 .f32) (harg9 : arg9.IsWhole) (arg10 : Memref sig .tc .vmem S10000x128 .f32) (harg10 : arg10.IsWhole) (hc : ¬cond0 i)
    (x1 x2 x3 x4 x5 : Vec F S40x10000 .f32) (x6 : Vec F S10000x128 .f32) (x7 x8 : Vec F S128x128 .f32) (xs : Vec F S10000x128 .f32) :
    { L9 : List (View.Piece (Elt F) S5x40x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ owns (c : Thread nD τ) arg10 fullShare xs) -∗ K ⟨⟩))
          ⊢ wp frame (wpE (defs₀ (F := F)) Variants.none c none) E (cc0__k i arg1 harg1 arg2 harg2 arg3 harg3 arg4 harg4 arg5 harg5 arg6 harg6 arg7 harg7 arg8 harg8 arg9 harg9 arg10 harg10) K } := by
  refine ⟨?_, fun E K => ?run⟩
  case run =>
    simp only [cc0__k_eq_skeleton]; unfold cc0__k_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    obtain rfl := harg10.eq_unread hfs
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; isplitr; · ipureintro; exact harg10.read_unread _
    iexact HS

end Cert.KernelIdeal.Hand

end
-- ==== Proof.KI.Data.lean ====
/-
  The pipeline's proof data and the body obligation.

  What the windows hold: each input window's current buffer holds its array's block at the point (five row blocks of
  the adjacency, 40 rows each, one per fifth of the nodes; x, W and the self-weights whole); the output window's
  buffer holds, after the body, the five 1×40×128 pieces the body stored. What the kernel keeps between points: the
  scratch buffer holds the support x·W from the first point on — the first point stores it, every later point only
  reads it — so the region invariant is "the scratch at anything" before the first point and "the scratch at the
  support" afterwards, the generator register at some state throughout.
-/
import proofs.«105982_g56341380989462_cont_9to1_m_248_13_alg».proof.Proof.KI.RunA
import proofs.«105982_g56341380989462_cont_9to1_m_248_13_alg».proof.Proof.KI.RunB
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The TensorCore's buffers as the region finds them: no host operation runs before it, so they are the launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it to the body, and its wholeness. -/
abbrev ms0 (t : Fin cfg0.N) : Memref sig .tc .vmem S40x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S40x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S40x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S40x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S40x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S10000x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S5x40x128 .f32 := win0_8.stage (cfg0.slots t 8)
abbrev hs8 (t : Fin cfg0.N) : (ms8 t).IsWhole := hstage0_8 ((cfg0.slots t 8).cast nbuf0_8)

/-- The grid's first point. -/
abbrev t0 : Fin cfg0.N := ⟨0, by decide⟩

/-- An input window's current buffer holds its block at every point, fetched there or not, for any proof data whose
    array is the region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The body's run at a first point. -/
abbrev runAt (c : Dev nD) (t : Fin cfg0.N) (h : t.val = 0) :=
  kernelRunA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcond0 t).mpr h) (iblk m c 0 t) (iblk m c 1 t) (iblk m c 2 t) (iblk m c 3 t) (iblk m c 4 t) (iblk m c 5 t) (iblk m c 6 t) (iblk m c 7 t)

/-- THE SUPPORT as the kernel holds it: what the first point's one whole-buffer store leaves in the scratch. -/
def supp (c : Dev nD) : Vec F S10000x128 .f32 :=
  VS.read (Elt F) (VS.writes (Elt F) VS.junk (runAt m c t0 rfl).2.1)

/-- That store covers the scratch. -/
theorem scover (c : Dev nD) (y : S10000x128.Idx) : ∃ pc ∈ (runAt m c t0 rfl).2.1, y ∈ pc.1.set :=
  View.cover_of_tiledL (runAt m c t0 rfl).2.1 S10000x128.size (by sl_kernel_rfl) y

/-- The body's run at a later point, the scratch holding the support. -/
abbrev runBt (c : Dev nD) (t : Fin cfg0.N) (h : ¬t.val = 0) :=
  kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun hc => h ((hcond0 t).mp hc)) (iblk m c 0 t) (iblk m c 1 t) (iblk m c 2 t) (iblk m c 3 t) (iblk m c 4 t) (iblk m c 5 t) (iblk m c 6 t) (iblk m c 7 t) (supp m c)

/-- The five stores tile the output block, at the first point and at the others. -/
theorem ocoverA (c : Dev nD) (t : Fin cfg0.N) (h : t.val = 0) (y : S5x40x128.Idx) : ∃ pc ∈ (runAt m c t h).1, y ∈ pc.1.set :=
  View.cover_of_tiledL (runAt m c t h).1 S1x40x128.size (by sl_kernel_rfl) y
theorem ocoverB (c : Dev nD) (t : Fin cfg0.N) (h : ¬t.val = 0) (y : S5x40x128.Idx) : ∃ pc ∈ (runBt m c t h).1, y ∈ pc.1.set :=
  View.cover_of_tiledL (runBt m c t h).1 S1x40x128.size (by sl_kernel_rfl) y

/-- What the body leaves in the output's staging buffer at point `t`: its pieces read back. -/
def outAt (c : Dev nD) (t : Fin cfg0.N) : Vec F S5x40x128 .f32 :=
  if h : t.val = 0 then VO.read (Elt F) (VO.writes (Elt F) VO.junk (runAt m c t h).1)
  else VO.read (Elt F) (VO.writes (Elt F) VO.junk (runBt m c t h).1)

theorem outAt_first (c : Dev nD) (t : Fin cfg0.N) (h : t.val = 0) :
    outAt m c t = VO.read (Elt F) (VO.writes (Elt F) VO.junk (runAt m c t h).1) := dif_pos h
theorem outAt_later (c : Dev nD) (t : Fin cfg0.N) (h : ¬t.val = 0) :
    outAt m c t = VO.read (Elt F) (VO.writes (Elt F) VO.junk (runBt m c t h).1) := dif_neg h

/-- The region invariant before position `n`: before the first point the scratch at anything; afterwards at the
    support; the generator register at some state. -/
def PhiS (c : Dev nD) : ℕ → sProp 𝕄
  | 0 => Pipeline.ΦA spec0 c
  | _ + 1 => iprop(iprop(owns (c : Thread nD τ) scM fullShare (supp m c)) ∗ (∃ r, prngReg c r))

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem PhiS_pos (c : Dev nD) (n : ℕ) (hz : n ≠ 0) :
    PhiS m c n = iprop(iprop(owns (c : Thread nD τ) scM fullShare (supp m c)) ∗ (∃ r, prngReg c r)) := by
  cases n with
  | zero => exact absurd rfl hz
  | succ n => rfl

/-- The shares of the adjacency the five row-block windows hold: a full share cut in five. -/
abbrev adjShare : Fin 5 → PosShare TreeShare
  | 0 => fullShare.left
  | 1 => fullShare.right.left
  | 2 => fullShare.right.right.left
  | 3 => fullShare.right.right.right.left
  | 4 => fullShare.right.right.right.right

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val
  q w := match w with
    | ⟨0, _⟩ => adjShare 0
    | ⟨1, _⟩ => adjShare 1
    | ⟨2, _⟩ => adjShare 2
    | ⟨3, _⟩ => adjShare 3
    | ⟨4, _⟩ => adjShare 4
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point: the inputs' buffers hold their blocks; at the first point the scratch is handed over at
    anything and taken back at the support, at a later point handed over and taken back at the support; the output's
    buffer is taken back with the five pieces written; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [show (dats m 0 c).Φ t.castSucc = PhiS m c t.val from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from rfl, after5]
  rw [show (dats m 0 c).leavesExact 6 t = owns (c : Thread nD τ) (ms6 t) fullShare ((dats m 0 c).after 6 t) from rfl, after6]
  rw [show (dats m 0 c).leavesExact 7 t = owns (c : Thread nD τ) (ms7 t) fullShare ((dats m 0 c).after 7 t) from rfl, after7]
  rw [show (dats m 0 c).leavesExact 8 t = owns (c : Thread nD τ) (ms8 t) fullShare ((dats m 0 c).after 8 t) from rfl, after8]
  by_cases hz : t.val = 0
  · rw [outAt_first m c t hz]
    rw [show PhiS m c t.val = Pipeline.ΦA spec0 c from by rw [hz]; rfl, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runAt m c t hz).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%e8, H8⟩, ⟨%es, HS⟩⟩
    isplitl [HS Hg]
    · isplitl [HS]
      · unfold owns; iexists _; isplitr
        swap; · iexact HS
        ipureintro
        obtain rfl : t = t0 := Fin.ext hz
        exact View.read_writes_of_cover _ _ _ _ _ (scover m c)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (ocoverA m c t hz)
  · rw [outAt_later m c t hz]
    rw [PhiS_pos m c t.val hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runBt m c t hz).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%e8, H8⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (ocoverB m c t hz)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem Phi_in (c : Dev nD) : Pipeline.ΦA spec0 c ⊢ (dats m 0 c).Φ 0 := by
  rw [show (dats m 0 c).Φ 0 = PhiS m c 0 from rfl]
  exact Idealize.SL.BI.Entails.refl _

/-- and after the last point the invariant gives it back: the support's name is forgotten. -/
theorem Phi_out (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 50 := N_0; omega), PhiA_eq]
  iintro ⟨HS, Hg⟩
  isplitl [HS]
  · iexists _; iexact HS
  iexact Hg

/-! ## What the run leaves -/

/-- The output array (five fifths of the nodes × 2000 rows × 128 features) after the run, as the write-backs of the
    fifty points assemble it from what the body left at each. -/
def finalOut (c : Dev nD) : Vec F S5x2000x128 .f32 := (dats m 0 c).arrAt 8 cfg0.N

/-- The program's result: that array's rows laid end to end, fifth after fifth. -/
def result (c : Dev nD) : Vec F S10000x128 .f32 := shapeCast S10000x128 (finalOut m c) shapeCasts_S5x2000x128_S10000x128

end Cert.KernelIdeal.Hand

end
-- ==== Proof.KI.Launch.lean ====
/-
  The launch: @main is the kernel region followed by one host operation (the reshape of the 5×2000×128 output to
  10000×128). The adjacency is handed to the kernel through FIVE windows (one per fifth of the nodes), so at the
  region's entry its buffer, held whole, is split into five shares, one per window; the other arguments are held
  whole by their one window, the output array whole by its own. After the region the output array holds what the
  fifty write-backs assembled; the reshape copies it into the result buffer; every argument array is read back, at
  whatever share it is held, as it was at launch.
-/
import proofs.«105982_g56341380989462_cont_9to1_m_248_13_alg».proof.Proof.KI.Data
import Idealize.ShloMosaic.Lib.Pipeline.Regions
import Idealize.ShloMosaic.Lib.StableHlo.Run
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none

/-- A buffer held whole at contents `f`. -/
abbrev pt (c : Dev nD) (b : Ref sig .tc) (q : PosShare TreeShare) (f : Buf (Elt F) ((c : Thread nD τ).loc b)) : sProp 𝕄 :=
  ((c : Thread nD τ).loc b) ↦{q} f

/-! ## One full share cut in five -/

theorem share_split (c : Dev nD) (b : Ref sig .tc) (f : Buf (Elt F) ((c : Thread nD τ).loc b)) :
    pt c b fullShare f ⊢ iprop(pt c b (adjShare 0) f ∗ pt c b (adjShare 1) f ∗ pt c b (adjShare 2) f ∗ pt c b (adjShare 3) f ∗ pt c b (adjShare 4) f) := by
  iintro H
  ihave H := (pointsTo_share (PosShare.mem_left_op_right fullShare)).1 $$ H
  icases H with ⟨H0, H⟩
  ihave H := (pointsTo_share (PosShare.mem_left_op_right fullShare.right)).1 $$ H
  icases H with ⟨H1, H⟩
  ihave H := (pointsTo_share (PosShare.mem_left_op_right fullShare.right.right)).1 $$ H
  icases H with ⟨H2, H⟩
  ihave H := (pointsTo_share (PosShare.mem_left_op_right fullShare.right.right.right)).1 $$ H
  icases H with ⟨H3, H4⟩
  isplitl [H0]; · iexact H0
  isplitl [H1]; · iexact H1
  isplitl [H2]; · iexact H2
  isplitl [H3]; · iexact H3
  iexact H4

/-! ## The buffers behind the windows, and the windows' arrays, listed -/

/-- The five distinct buffers behind the nine windows. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop(pt c main_arg1 fullShare (W main_arg1) ∗ pt c main_arg0 fullShare (W main_arg0) ∗ pt c main_arg2 fullShare (W main_arg2)
          ∗ pt c main_arg3 fullShare (W main_arg3) ∗ pt c main_call0_v0 fullShare (W main_call0_v0)) := by
  unfold Pipeline.arrBufs
  rw [bigSep_eq_bigSepL_of_eq [main_arg1, main_arg0, main_arg2, main_arg3, main_call0_v0] (by decide) (by decide)]
  rfl

/-- The share the proof data gives each window, and each window's array as a points-to at it. -/
theorem share0 (c : Dev nD) : (dats m 0 c).share 0 = (adjShare 0) := by
  unfold Dat.share
  dsimp only [dats]
  rfl
theorem arr0 (c : Dev nD) (A : (w : Fin cfg0.W) → Buf (Elt F) ((cfg0.win w).arr.view.loc (c : Thread nD τ))) :
    ((cfg0.win 0).arr.view.loc (c : Thread nD τ) ↦[(cfg0.win 0).arr.view.set]{(dats m 0 c).share 0} A 0 : sProp 𝕄) = pt c main_arg1 (adjShare 0) (A 0) := by
  rw [share0, (arr_whole0 0).set_eq_univ]
theorem share1 (c : Dev nD) : (dats m 0 c).share 1 = (adjShare 1) := by
  unfold Dat.share
  dsimp only [dats]
  rfl
theorem arr1 (c : Dev nD) (A : (w : Fin cfg0.W) → Buf (Elt F) ((cfg0.win w).arr.view.loc (c : Thread nD τ))) :
    ((cfg0.win 1).arr.view.loc (c : Thread nD τ) ↦[(cfg0.win 1).arr.view.set]{(dats m 0 c).share 1} A 1 : sProp 𝕄) = pt c main_arg1 (adjShare 1) (A 1) := by
  rw [share1, (arr_whole0 1).set_eq_univ]
theorem share2 (c : Dev nD) : (dats m 0 c).share 2 = (adjShare 2) := by
  unfold Dat.share
  dsimp only [dats]
  rfl
theorem arr2 (c : Dev nD) (A : (w : Fin cfg0.W) → Buf (Elt F) ((cfg0.win w).arr.view.loc (c : Thread nD τ))) :
    ((cfg0.win 2).arr.view.loc (c : Thread nD τ) ↦[(cfg0.win 2).arr.view.set]{(dats m 0 c).share 2} A 2 : sProp 𝕄) = pt c main_arg1 (adjShare 2) (A 2) := by
  rw [share2, (arr_whole0 2).set_eq_univ]
theorem share3 (c : Dev nD) : (dats m 0 c).share 3 = (adjShare 3) := by
  unfold Dat.share
  dsimp only [dats]
  rfl
theorem arr3 (c : Dev nD) (A : (w : Fin cfg0.W) → Buf (Elt F) ((cfg0.win w).arr.view.loc (c : Thread nD τ))) :
    ((cfg0.win 3).arr.view.loc (c : Thread nD τ) ↦[(cfg0.win 3).arr.view.set]{(dats m 0 c).share 3} A 3 : sProp 𝕄) = pt c main_arg1 (adjShare 3) (A 3) := by
  rw [share3, (arr_whole0 3).set_eq_univ]
theorem share4 (c : Dev nD) : (dats m 0 c).share 4 = (adjShare 4) := by
  unfold Dat.share
  dsimp only [dats]
  rfl
theorem arr4 (c : Dev nD) (A : (w : Fin cfg0.W) → Buf (Elt F) ((cfg0.win w).arr.view.loc (c : Thread nD τ))) :
    ((cfg0.win 4).arr.view.loc (c : Thread nD τ) ↦[(cfg0.win 4).arr.view.set]{(dats m 0 c).share 4} A 4 : sProp 𝕄) = pt c main_arg1 (adjShare 4) (A 4) := by
  rw [share4, (arr_whole0 4).set_eq_univ]
theorem share5 (c : Dev nD) : (dats m 0 c).share 5 = (fullShare) := by
  unfold Dat.share
  dsimp only [dats]
  rfl
theorem arr5 (c : Dev nD) (A : (w : Fin cfg0.W) → Buf (Elt F) ((cfg0.win w).arr.view.loc (c : Thread nD τ))) :
    ((cfg0.win 5).arr.view.loc (c : Thread nD τ) ↦[(cfg0.win 5).arr.view.set]{(dats m 0 c).share 5} A 5 : sProp 𝕄) = pt c main_arg0 (fullShare) (A 5) := by
  rw [share5, (arr_whole0 5).set_eq_univ]
theorem share6 (c : Dev nD) : (dats m 0 c).share 6 = (fullShare) := by
  unfold Dat.share
  dsimp only [dats]
  rfl
theorem arr6 (c : Dev nD) (A : (w : Fin cfg0.W) → Buf (Elt F) ((cfg0.win w).arr.view.loc (c : Thread nD τ))) :
    ((cfg0.win 6).arr.view.loc (c : Thread nD τ) ↦[(cfg0.win 6).arr.view.set]{(dats m 0 c).share 6} A 6 : sProp 𝕄) = pt c main_arg2 (fullShare) (A 6) := by
  rw [share6, (arr_whole0 6).set_eq_univ]
theorem share7 (c : Dev nD) : (dats m 0 c).share 7 = (fullShare) := by
  unfold Dat.share
  dsimp only [dats]
  rfl
theorem arr7 (c : Dev nD) (A : (w : Fin cfg0.W) → Buf (Elt F) ((cfg0.win w).arr.view.loc (c : Thread nD τ))) :
    ((cfg0.win 7).arr.view.loc (c : Thread nD τ) ↦[(cfg0.win 7).arr.view.set]{(dats m 0 c).share 7} A 7 : sProp 𝕄) = pt c main_arg3 (fullShare) (A 7) := by
  rw [share7, (arr_whole0 7).set_eq_univ]
theorem share8 (c : Dev nD) : (dats m 0 c).share 8 = (fullShare) := by
  unfold Dat.share
  dsimp only [dats]
  rfl
theorem arr8 (c : Dev nD) (A : (w : Fin cfg0.W) → Buf (Elt F) ((cfg0.win w).arr.view.loc (c : Thread nD τ))) :
    ((cfg0.win 8).arr.view.loc (c : Thread nD τ) ↦[(cfg0.win 8).arr.view.set]{(dats m 0 c).share 8} A 8 : sProp 𝕄) = pt c main_call0_v0 (fullShare) (A 8) := by
  rw [share8, (arr_whole0 8).set_eq_univ]

/-- The pipeline's arrays, window by window, each at the share its window holds. -/
theorem arrays_eq9 (c : Dev nD) (A : (w : Fin cfg0.W) → Buf (Elt F) ((cfg0.win w).arr.view.loc (c : Thread nD τ))) :
    ((dats m 0 c).arrays A : sProp 𝕄)
      = iprop(pt c main_arg1 (adjShare 0) (A 0) ∗ pt c main_arg1 (adjShare 1) (A 1) ∗ pt c main_arg1 (adjShare 2) (A 2)
          ∗ pt c main_arg1 (adjShare 3) (A 3) ∗ pt c main_arg1 (adjShare 4) (A 4)
          ∗ pt c main_arg0 fullShare (A 5) ∗ pt c main_arg2 fullShare (A 6) ∗ pt c main_arg3 fullShare (A 7)
          ∗ pt c main_call0_v0 fullShare (A 8)) := by
  unfold Dat.arrays
  rw [bigSep_W0]
  exact congrArg₂ _ (arr0 m c A) (congrArg₂ _ (arr1 m c A) (congrArg₂ _ (arr2 m c A) (congrArg₂ _ (arr3 m c A) (congrArg₂ _ (arr4 m c A)
    (congrArg₂ _ (arr5 m c A) (congrArg₂ _ (arr6 m c A) (congrArg₂ _ (arr7 m c A) (arr8 m c A))))))))

/-- The input windows' arrays at the launch contents, each at its share: what rides past the reshape to the end. -/
def inArrs (c : Dev nD) : sProp 𝕄 :=
  iprop(pt c main_arg1 (adjShare 0) (V m c main_arg1) ∗ pt c main_arg1 (adjShare 1) (V m c main_arg1) ∗ pt c main_arg1 (adjShare 2) (V m c main_arg1)
    ∗ pt c main_arg1 (adjShare 3) (V m c main_arg1) ∗ pt c main_arg1 (adjShare 4) (V m c main_arg1)
    ∗ pt c main_arg0 fullShare (V m c main_arg0) ∗ pt c main_arg2 fullShare (V m c main_arg2) ∗ pt c main_arg3 fullShare (V m c main_arg3))

/-- What rides beside the buffers throughout: the generator register at some state, and that the core owes nothing. -/
abbrev Rr (c : Dev nD) : sProp 𝕄 :=
  iprop((∃ r, prngReg c r) ∗ ∃ W, owes (c : Thread nD τ) (0 : CellTallies nD τ sig Unit) W)

/-! ## After the region: the reshape -/

/-- The two buffers the reshape touches. -/
abbrev tailBufs : Finset (DevRef τ sig) := {Proc.devRef .tc main_call0_v0, Proc.devRef .tc main_v0}

/-- The TensorCore's buffers when the region is left: the output array at what the run assembled, the rest as launched. -/
def V₁ (c : Dev nD) : Valuation τ sig (Elt F) :=
  Function.update (fun b => m ((c : Dev nD), b)) (Proc.devRef .tc main_call0_v0) (finalOut m c)

theorem V₁_out (c : Dev nD) : V₁ m c (Proc.devRef .tc main_call0_v0) = finalOut m c := by
  unfold V₁; rw [Function.update_self]

theorem V₁_res (c : Dev nD) : V₁ m c (Proc.devRef .tc main_v0) = m ((c : Dev nD), Proc.devRef .tc main_v0) := by
  unfold V₁; rw [Function.update_of_ne (by decide)]

theorem held_tail (c : Dev nD) (W : Valuation τ sig (Elt F)) :
    (StableHlo.held (c : Thread nD τ) tailBufs W : sProp 𝕄)
      = iprop(pt c main_call0_v0 fullShare (W (Proc.devRef .tc main_call0_v0)) ∗ pt c main_v0 fullShare (W (Proc.devRef .tc main_v0))) := by
  unfold StableHlo.held
  rw [bigSep_eq_bigSepL_of_eq [Proc.devRef .tc main_call0_v0, Proc.devRef .tc main_v0] (by decide) (by decide)]
  rfl

/-- After the reshape the result buffer holds the output array's rows laid end to end. -/
theorem after_res (c : Dev nD) :
    StableHlo.after (hostOps1 (F := F)) (V₁ m c) (Proc.devRef .tc main_v0) = result m c := by
  after_results
  rw [V₁_out]
  rfl

/-- THE HOST SEGMENT: the reshape over its two buffers, everything else riding along. -/
def seg1 : Pipeline.HostSeg (Name := ℕ) (U := UR sig nD τ) (pcfgs (F := F)) defs₀ 𝒱₀ L lv :=
  Pipeline.HostSeg.ofOps _ _ _ _ _ tailBufs hostOps1
    (by intro op h; simp only [hostOps1, List.mem_singleton] at h; subst h; exact Finset.Subset.refl _)
    (by intro _ h; (repeat (cases h with | head => rfl | tail _ h => ?_)); exact nomatch h)
    (V₁ m) (fun c => iprop(inArrs m c ∗ Rr c))

/-! ## The region -/

set_option backward.isDefEq.respectTransparency.types false in
/-- THE REGION: entered from the launch's buffers — the adjacency cut in five shares among its windows, the other
    arguments and the output array to their windows, the result buffer bypassing, the generator register into the
    invariant —, left with the output array at what the write-backs assembled, ready for the reshape. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(unscopedBufs c (V m c) ∗ Rr c)
  post c := iprop(StableHlo.held (c : Thread nD τ) tailBufs (V₁ m c) ∗ inArrs m c ∗ Rr c)
  X c := iprop(∃ r, prngReg c r)
  Y c := iprop(∃ r, prngReg c r)
  Z c := pt c main_v0 fullShare (V m c main_v0)
  hentry c := by
    rw [Pipeline.unscopedBufs_split₀ (cfgs) 0 winFacts₀0.arr_unscoped c (V m c), arrBufs_eq, unscopedRest0_eq, arrays_eq9]
    iintro ⟨⟨⟨⟨H1, H0, H2, H3, H8⟩, Hv⟩, Hp, HO⟩, -, -⟩
    ihave H1 := (share_split c main_arg1 (V m c main_arg1)) $$ H1
    icases H1 with ⟨Ha, Hb, Hc, Hd, He⟩
    imodintro
    isplitl [Ha Hb Hc Hd He H0 H2 H3 H8]
    · isplitl [Ha]; · iexact Ha
      isplitl [Hb]; · iexact Hb
      isplitl [Hc]; · iexact Hc
      isplitl [Hd]; · iexact Hd
      isplitl [He]; · iexact He
      isplitl [H0]; · iexact H0
      isplitl [H2]; · iexact H2
      isplitl [H3]; · iexact H3
      iexact H8
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hv
  hin c :=
    (show _ ⊢ Pipeline.ΦA spec0 c from by
      unfold Pipeline.ΦA
      iintro ⟨Hp, -, Hr⟩
      isplitl [Hr] <;> iassumption).trans (Phi_in m c)
  hout c := by
    refine (Phi_out m c).trans ?_
    rw [Pipeline.ownSems0_none]; unfold Pipeline.ΦA
    iintro ⟨Hr, Hp⟩
    isplitl [Hp]; · iexact Hp
    isplitr; · iempintro
    iexact Hr
  hexit c := by
    rw [arrays_eq9, held_tail, V₁_out, V₁_res]
    rw [(dats m 0 c).arrAt_in 0 rfl, (dats m 0 c).arrAt_in 1 rfl, (dats m 0 c).arrAt_in 2 rfl, (dats m 0 c).arrAt_in 3 rfl,
      (dats m 0 c).arrAt_in 4 rfl, (dats m 0 c).arrAt_in 5 rfl, (dats m 0 c).arrAt_in 6 rfl, (dats m 0 c).arrAt_in 7 rfl]
    iintro ⟨⟨Ha, Hb, Hc, Hd, He, H0, H2, H3, H8⟩, HO, Hp, Hv⟩
    imodintro
    isplitl [H8 Hv]
    · isplitl [H8]; · iexact H8
      iexact Hv
    isplitl [Ha Hb Hc Hd He H0 H2 H3]
    · unfold inArrs
      isplitl [Ha]; · iexact Ha
      isplitl [Hb]; · iexact Hb
      isplitl [Hc]; · iexact Hc
      isplitl [Hd]; · iexact Hd
      isplitl [He]; · iexact He
      isplitl [H0]; · iexact H0
      isplitl [H2]; · iexact H2
      iexact H3
    isplitl [Hp]; · iexact Hp
    unfold Pipeline.Dat.owesAt Pipeline.owesWithin
    icases HO with ⟨%W, -, HO⟩; iexists W; iexact HO

/-- @main as the list of the two. -/
abbrev segs : List (Pipeline.Seg (pcfgs (F := F)) adm (dats m) () defs₀ 𝒱₀ L lv) := [.region (reg0 m), .host (seg1 m)]

/-- What is left at the end: the reshape's two buffers, the input arrays at their shares, the generator register. -/
abbrev Tₙ (c : Dev nD) : sProp 𝕄 :=
  iprop(StableHlo.held (c : Thread nD τ) tailBufs (StableHlo.after hostOps1 (V₁ m c)) ∗ inArrs m c ∗ ∃ r, prngReg c r)

set_option backward.isDefEq.respectTransparency.types false in
/-- At the compiled mesh, for any float values, from any memory with zero counters: every weakly fair execution of @main on
    the TensorCores terminates, and every final state has the result buffer at the output array's rows laid end to end and
    the four argument arrays as launched. -/
theorem run_main : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ Rr c)) (Tₙ := Tₙ m)
    (hch := ⟨fun _ => .rfl, fun _ => .rfl, fun c => by
      refine (show iprop(StableHlo.held (c : Thread nD τ) tailBufs (StableHlo.after hostOps1 (V₁ m c)) ∗ (inArrs m c ∗ Rr c)) ⊢ _ from ?_)
      iintro ⟨Hh, Hi, Hp, HO⟩
      isplitr [HO]
      · isplitl [Hh]; · iexact Hh
        isplitl [Hi]; · iexact Hi
        iexact Hp
      · iexact HO⟩)
    (hinit := by
      refine Pipeline.initEach L lv fun c => ?_
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v0) = result m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => by
      dsimp only [Tₙ]; rw [held_tail, after_res]; unfold inArrs
      iintro ⟨⟨⟨H8, Hv⟩, ⟨Ha, Hb, Hc, Hd, He, H0, H2, H3⟩, -⟩, HSI⟩
      icombine HSI Hv gives %hv
      icombine HSI H0 gives %h0
      icombine HSI Ha gives %h1
      icombine HSI H2 gives %h2
      icombine HSI H3 gives %h3
      imodintro
      isplitr
      · ipureintro
        exact ⟨Buf.eq_of_forall_mem_univ hv, Buf.eq_of_forall_mem_univ h0, Buf.eq_of_forall_mem_univ h1,
          Buf.eq_of_forall_mem_univ h2, Buf.eq_of_forall_mem_univ h3⟩
      iexact HSI)
    (hQ := fun _ h => h)

end Cert.KernelIdeal.Hand

end
-- ==== Proof.Spec.lean ====
/-
  The graph-convolution layer both programs compute, as ONE function of the four argument arrays over the
  extended reals, index by index, in the kernel's arrangement:

      out[r, j] = max( Σₖ adj[r, k] · S[k, j]  +  ( S[r, j] + Σ_d x[r, d] · Wself[d, j] ),  0 ),
      S[k, j]   = Σ_d x[k, d] · W[d, j]                      (the support x·W).

  The reference adds the identity to the adjacency first, (adj + I)·S; the two agree when the entries are real
  numbers, since then (a + δ)·s = a·s + δ·s and the δ-terms of the row sum collapse to S[r, j].
-/
import Idealize.ShloMosaic.PureOps.Ideal
import Idealize.ShloMosaic.Lib.ValueIdx

noncomputable section

namespace Cert.Spec

open Idealize.ShloMosaic Idealize.ShloMosaic.ValueIdx

/-- Nodes × features, nodes × nodes, features × features. -/
abbrev SNF : Shape := ⟨2, ![10000, 128]⟩
abbrev SNN : Shape := ⟨2, ![10000, 10000]⟩
abbrev SFF : Shape := ⟨2, ![128, 128]⟩

/-- The support x·W at node `k`, feature `j`. -/
def support (x : SNF.Idx → EReal) (W : SFF.Idx → EReal) (k : Fin 10000) (j : Fin 128) : EReal :=
  ∑ d : Fin 128, x (ix2 k d) * W (ix2 d j)

/-- The layer at node `r`, feature `j`: neighbours' support weighted by the adjacency row, plus the node's own
    support and its self-weighted features, clamped below at zero. -/
def layerAt (x : SNF.Idx → EReal) (adj : SNN.Idx → EReal) (W Ws : SFF.Idx → EReal) (r : Fin 10000) (j : Fin 128) : EReal :=
  max ((∑ k : Fin 10000, adj (ix2 r k) * support x W k j) + (support x W r j + support x Ws r j)) 0

/-- The layer as an array. -/
def layer (x : SNF.Idx → EReal) (adj : SNN.Idx → EReal) (W Ws : SFF.Idx → EReal) : SNF.Idx → EReal :=
  fun i => layerAt x adj W Ws (i 0) (i 1)

theorem layer_apply (x : SNF.Idx → EReal) (adj : SNN.Idx → EReal) (W Ws : SFF.Idx → EReal) (r : Fin 10000) (j : Fin 128) :
    layer x adj W Ws (ix2 r j) = layerAt x adj W Ws r j := rfl

end Cert.Spec

end
-- ==== Proof.KI.OutValue.lean ====
/-
  The output block the body leaves at a grid point, read at an index: entry (h, r, j) of the 5×40×128 block at
  point t is the layer at node h·2000 + 40·t + r, feature j.

  The road: the body's five stores are one expression, max( A·S + (Sr + Xr·Ws), 0 ), of five loaded values; at the
  extended reals its entry (r, j) is two plain sums. The run at a point finds five pieces that tile the block, one
  per fifth of the nodes; entry (h, r, j) lies under the piece at rows [h] alone. The loaded values are blocks of
  the argument arrays (40 rows of the adjacency from row 2000·h + 40·t; the features and the weights whole) and
  the scratch, which holds the support x·W — stored by the first point itself before it reads it back, found there
  by every later point. Both sides are then the same arrangement of the same sums.
-/
import proofs.«105982_g56341380989462_cont_9to1_m_248_13_alg».proof.Proof.KI.Data
import proofs.«105982_g56341380989462_cont_9to1_m_248_13_alg».proof.Proof.Spec
import Idealize.ShloMosaic.Lib.Pipeline.Value
import Idealize.ShloMosaic.Lib.ValueIdx
import Idealize.ShloMosaic.Lib.ValueLayout
import Idealize.ShloMosaic.Lib.WritesUnit
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-- The four argument arrays on core `c`. -/
abbrev argX (c : Dev nD) := m ((c.tc : Thread nD τ).loc main_arg0)
abbrev argAdj (c : Dev nD) := m ((c.tc : Thread nD τ).loc main_arg1)
abbrev argW (c : Dev nD) := m ((c.tc : Thread nD τ).loc main_arg2)
abbrev argWs (c : Dev nD) := m ((c.tc : Thread nD τ).loc main_arg3)

/-! ## The three products read at an index

Each of the body's matrix products accumulates into a zero splat, so at the extended reals its entry (r, j) is the
plain sum over the contraction index of the operands' products. The operand indices of each product's record
are first read coordinate by coordinate. -/

theorem lhsAdj_0 (i : S40x128.Idx) (q : dot_S40x10000_S10000x128_S40x128_1_0_0_1_n_n.contr.Idx) :
    (dot_S40x10000_S10000x128_S40x128_1_0_0_1_n_n.lhsIdx i q 0).val = (i 0).val := by
  unfold DotDims.lhsIdx
  rw [dif_neg (show ¬(0 : Fin S40x10000.rank) ∈ dot_S40x10000_S10000x128_S40x128_1_0_0_1_n_n.lhsBatch by decide), dif_pos (show (0 : Fin S40x10000.rank) ∈ dot_S40x10000_S10000x128_S40x128_1_0_0_1_n_n.lhsNonContracting by decide)]
  rfl
theorem lhsAdj_1 (i : S40x128.Idx) (q : dot_S40x10000_S10000x128_S40x128_1_0_0_1_n_n.contr.Idx) :
    (dot_S40x10000_S10000x128_S40x128_1_0_0_1_n_n.lhsIdx i q 1).val = (q ⟨0, by decide⟩).val :=
  dot_S40x10000_S10000x128_S40x128_1_0_0_1_n_n.lhsIdx_val_of_single rfl i q
theorem rhsAdj_0 (i : S40x128.Idx) (q : dot_S40x10000_S10000x128_S40x128_1_0_0_1_n_n.contr.Idx) :
    (dot_S40x10000_S10000x128_S40x128_1_0_0_1_n_n.rhsIdx i q 0).val = (q ⟨0, by decide⟩).val :=
  dot_S40x10000_S10000x128_S40x128_1_0_0_1_n_n.rhsIdx_val_of_single rfl i q
theorem rhsAdj_1 (i : S40x128.Idx) (q : dot_S40x10000_S10000x128_S40x128_1_0_0_1_n_n.contr.Idx) :
    (dot_S40x10000_S10000x128_S40x128_1_0_0_1_n_n.rhsIdx i q 1).val = (i 1).val := by
  unfold DotDims.rhsIdx
  rw [dif_neg (show ¬(1 : Fin S10000x128.rank) ∈ dot_S40x10000_S10000x128_S40x128_1_0_0_1_n_n.rhsBatch by decide), dif_pos (show (1 : Fin S10000x128.rank) ∈ dot_S40x10000_S10000x128_S40x128_1_0_0_1_n_n.rhsNonContracting by decide)]
  rfl

theorem lhsSelf_0 (i : S40x128.Idx) (q : dot_S40x128_S128x128_S40x128_1_0_0_1_n_n.contr.Idx) :
    (dot_S40x128_S128x128_S40x128_1_0_0_1_n_n.lhsIdx i q 0).val = (i 0).val := by
  unfold DotDims.lhsIdx
  rw [dif_neg (show ¬(0 : Fin S40x128.rank) ∈ dot_S40x128_S128x128_S40x128_1_0_0_1_n_n.lhsBatch by decide), dif_pos (show (0 : Fin S40x128.rank) ∈ dot_S40x128_S128x128_S40x128_1_0_0_1_n_n.lhsNonContracting by decide)]
  rfl
theorem lhsSelf_1 (i : S40x128.Idx) (q : dot_S40x128_S128x128_S40x128_1_0_0_1_n_n.contr.Idx) :
    (dot_S40x128_S128x128_S40x128_1_0_0_1_n_n.lhsIdx i q 1).val = (q ⟨0, by decide⟩).val :=
  dot_S40x128_S128x128_S40x128_1_0_0_1_n_n.lhsIdx_val_of_single rfl i q
theorem rhsSelf_0 (i : S40x128.Idx) (q : dot_S40x128_S128x128_S40x128_1_0_0_1_n_n.contr.Idx) :
    (dot_S40x128_S128x128_S40x128_1_0_0_1_n_n.rhsIdx i q 0).val = (q ⟨0, by decide⟩).val :=
  dot_S40x128_S128x128_S40x128_1_0_0_1_n_n.rhsIdx_val_of_single rfl i q
theorem rhsSelf_1 (i : S40x128.Idx) (q : dot_S40x128_S128x128_S40x128_1_0_0_1_n_n.contr.Idx) :
    (dot_S40x128_S128x128_S40x128_1_0_0_1_n_n.rhsIdx i q 1).val = (i 1).val := by
  unfold DotDims.rhsIdx
  rw [dif_neg (show ¬(1 : Fin S128x128.rank) ∈ dot_S40x128_S128x128_S40x128_1_0_0_1_n_n.rhsBatch by decide), dif_pos (show (1 : Fin S128x128.rank) ∈ dot_S40x128_S128x128_S40x128_1_0_0_1_n_n.rhsNonContracting by decide)]
  rfl

theorem lhsSupp_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsSupp_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsSupp_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsSupp_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A 40-row block of the adjacency times a 10000×128 array: entry (r, j) sums over the 10000 nodes. -/
theorem mmAdj_apply (A : Vec Ideal S40x10000 .f32) (B : Vec Ideal S10000x128 .f32) (r : Fin 40) (j : Fin 128) :
    matmul (F := Ideal) (φ₁ := .f32) (φ₂ := .f32) dot_S40x10000_S10000x128_S40x128_1_0_0_1_n_n none A B (constant (F := Ideal) S40x128 .f32 0x00000000#32) (ix2 r j)
      = ∑ k : Fin 10000, A (ix2 r k) * B (ix2 k j) := by
  show FloatOps.matmul (F := Ideal) (φ₁ := .f32) (φ₂ := .f32) dot_S40x10000_S10000x128_S40x128_1_0_0_1_n_n none A B (constant (F := Ideal) S40x128 .f32 0x00000000#32) (ix2 r j) = _
  rw [Ideal.matmul_constant_zero_apply, ← Equiv.sum_comp (ValueIdx.contrEquiv1 dot_S40x10000_S10000x128_S40x128_1_0_0_1_n_n 10000 rfl rfl).symm]
  refine Finset.sum_congr rfl fun k _ => ?_
  have hk := ValueIdx.contrEquiv1_symm_val dot_S40x10000_S10000x128_S40x128_1_0_0_1_n_n 10000 rfl rfl k
  have el : dot_S40x10000_S10000x128_S40x128_1_0_0_1_n_n.lhsIdx (ix2 r j) ((ValueIdx.contrEquiv1 dot_S40x10000_S10000x128_S40x128_1_0_0_1_n_n 10000 rfl rfl).symm k) = ix2 r k := funext fun a => Fin.ext (by
    match a with
    | ⟨0, _⟩ => exact lhsAdj_0 _ _
    | ⟨1, _⟩ => exact (lhsAdj_1 _ _).trans hk)
  have er : dot_S40x10000_S10000x128_S40x128_1_0_0_1_n_n.rhsIdx (ix2 r j) ((ValueIdx.contrEquiv1 dot_S40x10000_S10000x128_S40x128_1_0_0_1_n_n 10000 rfl rfl).symm k) = ix2 k j := funext fun a => Fin.ext (by
    match a with
    | ⟨0, _⟩ => exact (rhsAdj_0 _ _).trans hk
    | ⟨1, _⟩ => exact rhsAdj_1 _ _)
  rw [el, er]

/-- A 40-row block of features times a 128×128 weight: entry (r, j) sums over the 128 features. -/
theorem mmSelf_apply (A : Vec Ideal S40x128 .f32) (B : Vec Ideal S128x128 .f32) (r : Fin 40) (j : Fin 128) :
    matmul (F := Ideal) (φ₁ := .f32) (φ₂ := .f32) dot_S40x128_S128x128_S40x128_1_0_0_1_n_n none A B (constant (F := Ideal) S40x128 .f32 0x00000000#32) (ix2 r j)
      = ∑ k : Fin 128, A (ix2 r k) * B (ix2 k j) := by
  show FloatOps.matmul (F := Ideal) (φ₁ := .f32) (φ₂ := .f32) dot_S40x128_S128x128_S40x128_1_0_0_1_n_n none A B (constant (F := Ideal) S40x128 .f32 0x00000000#32) (ix2 r j) = _
  rw [Ideal.matmul_constant_zero_apply, ← Equiv.sum_comp (ValueIdx.contrEquiv1 dot_S40x128_S128x128_S40x128_1_0_0_1_n_n 128 rfl rfl).symm]
  refine Finset.sum_congr rfl fun k _ => ?_
  have hk := ValueIdx.contrEquiv1_symm_val dot_S40x128_S128x128_S40x128_1_0_0_1_n_n 128 rfl rfl k
  have el : dot_S40x128_S128x128_S40x128_1_0_0_1_n_n.lhsIdx (ix2 r j) ((ValueIdx.contrEquiv1 dot_S40x128_S128x128_S40x128_1_0_0_1_n_n 128 rfl rfl).symm k) = ix2 r k := funext fun a => Fin.ext (by
    match a with
    | ⟨0, _⟩ => exact lhsSelf_0 _ _
    | ⟨1, _⟩ => exact (lhsSelf_1 _ _).trans hk)
  have er : dot_S40x128_S128x128_S40x128_1_0_0_1_n_n.rhsIdx (ix2 r j) ((ValueIdx.contrEquiv1 dot_S40x128_S128x128_S40x128_1_0_0_1_n_n 128 rfl rfl).symm k) = ix2 k j := funext fun a => Fin.ext (by
    match a with
    | ⟨0, _⟩ => exact (rhsSelf_0 _ _).trans hk
    | ⟨1, _⟩ => exact rhsSelf_1 _ _)
  rw [el, er]

/-- All the features times a 128×128 weight: entry (k, j) sums over the 128 features. -/
theorem mmSupp_apply (A : Vec Ideal S10000x128 .f32) (B : Vec Ideal S128x128 .f32) (r : Fin 10000) (j : Fin 128) :
    matmul (F := Ideal) (φ₁ := .f32) (φ₂ := .f32) dot_S10000x128_S128x128_S10000x128_1_0_0_1_n_n none A B (constant (F := Ideal) S10000x128 .f32 0x00000000#32) (ix2 r j)
      = ∑ k : Fin 128, A (ix2 r k) * B (ix2 k j) := by
  show FloatOps.matmul (F := Ideal) (φ₁ := .f32) (φ₂ := .f32) dot_S10000x128_S128x128_S10000x128_1_0_0_1_n_n none A B (constant (F := Ideal) S10000x128 .f32 0x00000000#32) (ix2 r j) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 r j) ((ValueIdx.contrEquiv1 dot_S10000x128_S128x128_S10000x128_1_0_0_1_n_n 128 rfl rfl).symm k) = ix2 r k := funext fun a => Fin.ext (by
    match a with
    | ⟨0, _⟩ => exact lhsSupp_0 _ _
    | ⟨1, _⟩ => exact (lhsSupp_1 _ _).trans hk)
  have er : dot_S10000x128_S128x128_S10000x128_1_0_0_1_n_n.rhsIdx (ix2 r j) ((ValueIdx.contrEquiv1 dot_S10000x128_S128x128_S10000x128_1_0_0_1_n_n 128 rfl rfl).symm k) = ix2 k j := funext fun a => Fin.ext (by
    match a with
    | ⟨0, _⟩ => exact (rhsSupp_0 _ _).trans hk
    | ⟨1, _⟩ => exact rhsSupp_1 _ _)
  rw [el, er]

/-! ## One row block of the layer

The body computes each of its five 40-row output pieces by the same expression of five loaded values: the
adjacency rows `A`, the support `S`, the support's and the features' own 40 rows `Sr`, `Xr`, and the self-weights
`Ws`:  max( A·S + (Sr + Xr·Ws), 0 ),  stored as a 1×40×128 piece. -/

/-- The 40×128 block max( A·S + (Sr + Xr·Ws), 0 ). -/
def rowBlock (Ws : Vec Ideal S128x128 .f32) (S : Vec Ideal S10000x128 .f32) (A : Vec Ideal S40x10000 .f32)
    (Sr Xr : Vec Ideal S40x128 .f32) : FVec Ideal S40x128 .f32 :=
  maximumf
    (addf (matmul (F := Ideal) (φ₁ := .f32) (φ₂ := .f32) dot_S40x10000_S10000x128_S40x128_1_0_0_1_n_n none A S (constant (F := Ideal) S40x128 .f32 0x00000000#32))
      (addf Sr (matmul (F := Ideal) (φ₁ := .f32) (φ₂ := .f32) dot_S40x128_S128x128_S40x128_1_0_0_1_n_n none Xr Ws (constant (F := Ideal) S40x128 .f32 0x00000000#32))))
    (broadcast S40x128 (Scalar.ofBits (F := Ideal) .f32 0x00000000#32))

/-- Its entry (r, j), the sums written out. -/
theorem rowBlock_apply (Ws : Vec Ideal S128x128 .f32) (S : Vec Ideal S10000x128 .f32) (A : Vec Ideal S40x10000 .f32)
    (Sr Xr : Vec Ideal S40x128 .f32) (r : Fin 40) (j : Fin 128) :
    rowBlock Ws S A Sr Xr (ix2 r j)
      = max ((∑ k : Fin 10000, A (ix2 r k) * S (ix2 k j)) + (Sr (ix2 r j) + ∑ d : Fin 128, Xr (ix2 r d) * Ws (ix2 d j))) 0 := by
  unfold rowBlock
  show max (matmul (F := Ideal) (φ₁ := .f32) (φ₂ := .f32) dot_S40x10000_S10000x128_S40x128_1_0_0_1_n_n none A S (constant (F := Ideal) S40x128 .f32 0x00000000#32) (ix2 r j)
      + (Sr (ix2 r j) + matmul (F := Ideal) (φ₁ := .f32) (φ₂ := .f32) dot_S40x128_S128x128_S40x128_1_0_0_1_n_n none Xr Ws (constant (F := Ideal) S40x128 .f32 0x00000000#32) (ix2 r j)))
    (Ideal.ofBits .f32 0x00000000#32) = _
  rw [mmAdj_apply, mmSelf_apply, Ideal.ofBits_zero_f32]

/-- A 40×128 block stored as a 1×40×128 piece reads (0, r, j) at (r, j). -/
theorem piece_apply (v : FVec Ideal S40x128 .f32) (r : Fin 40) (j : Fin 128) :
    shapeCast S1x40x128 v shapeCasts_S40x128_S1x40x128 (ix3 (0 : Fin 1) r j) = v (ix2 r j) := by
  refine (shapeCast_addUnit_apply ![40, 128] v shapeCasts_S40x128_S1x40x128 (ix3 (0 : Fin 1) r j)).trans ?_
  exact congrArg v (funext fun a => by match a with | ⟨0, _⟩ => rfl | ⟨1, _⟩ => rfl)

/-- Each of the five stored payloads is that block as a piece. -/
theorem pay4_eq (Ws : Vec Ideal S128x128 .f32) (S : Vec Ideal S10000x128 .f32) (A : Vec Ideal S40x10000 .f32) (Sr Xr : Vec Ideal S40x128 .f32) :
    k0_pay4 (F := Ideal) Ws S A Sr Xr = shapeCast S1x40x128 (rowBlock Ws S A Sr Xr) shapeCasts_S40x128_S1x40x128 := rfl
theorem pay75_eq (Ws : Vec Ideal S128x128 .f32) (S : Vec Ideal S10000x128 .f32) (A : Vec Ideal S40x10000 .f32) (Sr Xr : Vec Ideal S40x128 .f32) :
    k0_pay7 (F := Ideal) (k0_pay5 S A) (k0_pay6 Ws Sr Xr) = shapeCast S1x40x128 (rowBlock Ws S A Sr Xr) shapeCasts_S40x128_S1x40x128 := rfl
theorem pay8_eq (Ws : Vec Ideal S128x128 .f32) (S : Vec Ideal S10000x128 .f32) (A : Vec Ideal S40x10000 .f32) (Sr Xr : Vec Ideal S40x128 .f32) :
    k0_pay8 (F := Ideal) Ws S A Sr Xr = shapeCast S1x40x128 (rowBlock Ws S A Sr Xr) shapeCasts_S40x128_S1x40x128 := rfl
theorem pay19_eq (Ws : Vec Ideal S128x128 .f32) (S : Vec Ideal S10000x128 .f32) (A : Vec Ideal S40x10000 .f32) (Sr Xr : Vec Ideal S40x128 .f32) :
    k0_pay1 (F := Ideal) (k0_pay9 Ws S A Sr Xr) (Scalar.ofBits (F := Ideal) .f32 0x00000000#32) = shapeCast S1x40x128 (rowBlock Ws S A Sr Xr) shapeCasts_S40x128_S1x40x128 := rfl
theorem pay2_eq (Ws : Vec Ideal S128x128 .f32) (S : Vec Ideal S10000x128 .f32) (A : Vec Ideal S40x10000 .f32) (Sr Xr : Vec Ideal S40x128 .f32) :
    k0_pay2 (F := Ideal) Ws S A Sr Xr = shapeCast S1x40x128 (rowBlock Ws S A Sr Xr) shapeCasts_S40x128_S1x40x128 := rfl

/-! ## Loads -/

theorem zeros2 : (![0, 0] : Fin 2 → Nat) = fun _ => 0 := funext fun a => by fin_cases a <;> rfl

/-- A load of 40 rows from row `o` of a 10000×128 buffer reads row `o + r` at local row `r`. -/
theorem ldRows_apply (X : Vec Ideal S10000x128 .f32) (off : Fin 2 → Nat) (inb : ∀ a, off a + S40x128.size a ≤ S10000x128.size a)
    (o : Nat) (hoff : off = ![o, 0]) (r : Fin 40) (j : Fin 128) (row : Fin 10000) (hrow : row.val = o + r.val) :
    View.ld X (Rect.unit (s := S10000x128) off S40x128.size inb) (ix2 r j) = X (ix2 row j) := by
  subst hoff
  show X ((Rect.unit (s := S10000x128) ![o, 0] S40x128.size inb).idx (ix2 r j)) = X (ix2 row j)
  refine congrArg X (funext fun a => Fin.ext ?_)
  match a with
  | ⟨0, _⟩ => show o + 1 * r.val = row.val; omega
  | ⟨1, _⟩ => show 0 + 1 * j.val = j.val; omega

/-! ## The five pieces of an output block

At every point the body stores five 1×40×128 pieces, fifth `h` of the nodes into rows [h] of the block: the row
block above of the adjacency block `A h`, the support `S` (read whole, and by its 40 rows from row
2000·h + 40·(the point)), the features `X` (by the same 40 rows) and the self-weights. The list is newest first. -/

/-- The list of pieces, as a function of the eight values the body loads. -/
def pieces (i : grid0.Coords) (A0 A1 A2 A3 A4 : Vec Ideal S40x10000 .f32) (X S : Vec Ideal S10000x128 .f32)
    (Ws : Vec Ideal S128x128 .f32) : List (View.Piece (Elt Ideal) S5x40x128 .f32) :=
  [⟨Rect.unit (s := S5x40x128) ![4, 0, 0] S1x40x128.size inb_S5x40x128_S1x40x128_4_0_0,
      k0_pay2 (F := Ideal) Ws S A4
        (View.ld S (Rect.unit (s := S10000x128) (k0_off1 i 8000#32) S40x128.size (k0_off1_inb i 4)))
        (View.ld X (Rect.unit (s := S10000x128) (k0_off1 i 8000#32) S40x128.size (k0_off1_inb i 4)))⟩,
    ⟨Rect.unit (s := S5x40x128) ![3, 0, 0] S1x40x128.size inb_S5x40x128_S1x40x128_3_0_0,
      k0_pay1 (F := Ideal) (k0_pay9 Ws S A3
        (View.ld S (Rect.unit (s := S10000x128) (k0_off1 i 6000#32) S40x128.size (k0_off1_inb i 3)))
        (View.ld X (Rect.unit (s := S10000x128) (k0_off1 i 6000#32) S40x128.size (k0_off1_inb i 3))))
        (Scalar.ofBits (F := Ideal) .f32 0x00000000#32)⟩,
    ⟨Rect.unit (s := S5x40x128) ![2, 0, 0] S1x40x128.size inb_S5x40x128_S1x40x128_2_0_0,
      k0_pay8 (F := Ideal) Ws S A2
        (View.ld S (Rect.unit (s := S10000x128) (k0_off1 i 4000#32) S40x128.size (k0_off1_inb i 2)))
        (View.ld X (Rect.unit (s := S10000x128) (k0_off1 i 4000#32) S40x128.size (k0_off1_inb i 2)))⟩,
    ⟨Rect.unit (s := S5x40x128) ![1, 0, 0] S1x40x128.size inb_S5x40x128_S1x40x128_1_0_0,
      k0_pay7 (F := Ideal) (k0_pay5 S A1) (k0_pay6 Ws
        (View.ld S (Rect.unit (s := S10000x128) (k0_off1 i 2000#32) S40x128.size (k0_off1_inb i 1)))
        (View.ld X (Rect.unit (s := S10000x128) (k0_off1 i 2000#32) S40x128.size (k0_off1_inb i 1))))⟩,
    ⟨Rect.unit (s := S5x40x128) ![0, 0, 0] S1x40x128.size inb_S5x40x128_S1x40x128_0_0_0,
      k0_pay4 (F := Ideal) Ws S A0
        (View.ld S (Rect.unit (s := S10000x128) (k0_off1 i 0#32) S40x128.size (k0_off1_inb i 0)))
        (View.ld X (Rect.unit (s := S10000x128) (k0_off1 i 0#32) S40x128.size (k0_off1_inb i 0)))⟩]

/-- At a later point the run finds exactly these pieces, the support read from the scratch. -/
theorem runB_pieces (c : Dev nD) (t : Fin cfg0.N) (h : ¬t.val = 0) :
    (runBt (F := Ideal) m c t h).1
      = pieces (grid0.coords t) (iblk m c 0 t) (iblk m c 1 t) (iblk m c 2 t) (iblk m c 3 t) (iblk m c 4 t)
          (iblk m c 5 t) (supp m c) (iblk m c 7 t) := by
  unfold runBt kernelRunB
  dsimp only
  sl_unfold_words
  have hsc : View.read (Elt Ideal) (View.whole cc0_scratch0) ((Memref.isWhole_whole cc0_scratch0).unread (supp m c)) = supp m c :=
    (Memref.isWhole_whole cc0_scratch0).read_unread (supp m c)
  simp only [View.readAt_eq_ld, Memref.IsWhole.read_unread, hsc, View.ld_unit_zero (S := S128x128) zeros2,
    View.ld_unit_zero (S := S10000x128) zeros2, View.ld_unit_zero (S := S40x10000) zeros2]
  unfold pieces
  rfl

/-- At the first point the run finds the same pieces, the support being the product it has just stored. -/
theorem runA_pieces (c : Dev nD) (t : Fin cfg0.N) (h : t.val = 0) :
    (runAt (F := Ideal) m c t h).1
      = pieces (grid0.coords t) (iblk m c 0 t) (iblk m c 1 t) (iblk m c 2 t) (iblk m c 3 t) (iblk m c 4 t)
          (iblk m c 5 t) (k0_pay3 (F := Ideal) (iblk m c 5 t) (iblk m c 6 t)) (iblk m c 7 t) := by
  unfold runAt kernelRunA
  dsimp only
  sl_unfold_words
  simp only [View.readCov_unit_zero (S := S10000x128) _ zeros2, View.readAt_eq_ld, View.read_writes_junk_eq_canon,
    View.canon_unit_zero (S := S10000x128) zeros2, Memref.IsWhole.read_unread, View.ld_unit_zero (S := S128x128) zeros2,
    View.ld_unit_zero (S := S10000x128) zeros2, View.ld_unit_zero (S := S40x10000) zeros2]
  unfold pieces
  rfl

/-! ## The block read back, fifth by fifth

Entry (h, r, j) of what the five stores leave is under exactly one piece, the one at rows [h]; the newer pieces
miss it on the leading axis. Under it the entry is the row block's (r, j), the 40 loaded rows being rows
2000·h + 40·(the point) + r of the support and of the features. -/

theorem pieces_read4 (i : grid0.Coords) (A0 A1 A2 A3 A4 : Vec Ideal S40x10000 .f32) (X S : Vec Ideal S10000x128 .f32)
    (Ws : Vec Ideal S128x128 .f32) (r : Fin 40) (j : Fin 128) (row : Fin 10000)
    (hrow : row.val = 2000 * 4 + 40 * (i 0).val + r.val) :
    VO.read (Elt Ideal) (VO.writes (Elt Ideal) VO.junk (pieces i A0 A1 A2 A3 A4 X S Ws)) (ix3 (4 : Fin 5) r j)
      = max ((∑ k : Fin 10000, A4 (ix2 r k) * S (ix2 k j))
          + (S (ix2 row j) + ∑ d : Fin 128, X (ix2 row d) * Ws (ix2 d j))) 0 := by
  unfold pieces
  refine (View.read_writes_cons_unit_of_mem VO VO.junk _ _ _ (ix3 (4 : Fin 5) r j) (ix3 (0 : Fin 1) r j) rfl (fun a => by
    match a with
    | ⟨0, _⟩ => rfl
    | ⟨1, _⟩ => exact (Nat.zero_add _).symm
    | ⟨2, _⟩ => exact (Nat.zero_add _).symm)).trans ?_
  rw [pay2_eq]
  refine (piece_apply _ r j).trans ?_
  rw [rowBlock_apply]
  rw [ldRows_apply S (k0_off1 i 8000#32) (k0_off1_inb i 4) (2000 * 4 + 40 * (i 0).val) (k0_off1_eq i ⟨4, by decide⟩) r j row hrow]
  simp only [fun d => ldRows_apply X (k0_off1 i 8000#32) (k0_off1_inb i 4) (2000 * 4 + 40 * (i 0).val) (k0_off1_eq i ⟨4, by decide⟩) r d row hrow]

theorem pieces_read3 (i : grid0.Coords) (A0 A1 A2 A3 A4 : Vec Ideal S40x10000 .f32) (X S : Vec Ideal S10000x128 .f32)
    (Ws : Vec Ideal S128x128 .f32) (r : Fin 40) (j : Fin 128) (row : Fin 10000)
    (hrow : row.val = 2000 * 3 + 40 * (i 0).val + r.val) :
    VO.read (Elt Ideal) (VO.writes (Elt Ideal) VO.junk (pieces i A0 A1 A2 A3 A4 X S Ws)) (ix3 (3 : Fin 5) r j)
      = max ((∑ k : Fin 10000, A3 (ix2 r k) * S (ix2 k j))
          + (S (ix2 row j) + ∑ d : Fin 128, X (ix2 row d) * Ws (ix2 d j))) 0 := by
  unfold pieces
  refine (View.read_writes_cons_unit_of_not_mem VO VO.junk _ _ _ (ix3 (3 : Fin 5) r j) rfl (0 : Fin 3) (Or.inl (by show (3 : ℕ) < 4; omega))).trans ?_
  refine (View.read_writes_cons_unit_of_mem VO VO.junk _ _ _ (ix3 (3 : Fin 5) r j) (ix3 (0 : Fin 1) r j) rfl (fun a => by
    match a with
    | ⟨0, _⟩ => rfl
    | ⟨1, _⟩ => exact (Nat.zero_add _).symm
    | ⟨2, _⟩ => exact (Nat.zero_add _).symm)).trans ?_
  rw [pay19_eq]
  refine (piece_apply _ r j).trans ?_
  rw [rowBlock_apply]
  rw [ldRows_apply S (k0_off1 i 6000#32) (k0_off1_inb i 3) (2000 * 3 + 40 * (i 0).val) (k0_off1_eq i ⟨3, by decide⟩) r j row hrow]
  simp only [fun d => ldRows_apply X (k0_off1 i 6000#32) (k0_off1_inb i 3) (2000 * 3 + 40 * (i 0).val) (k0_off1_eq i ⟨3, by decide⟩) r d row hrow]

theorem pieces_read2 (i : grid0.Coords) (A0 A1 A2 A3 A4 : Vec Ideal S40x10000 .f32) (X S : Vec Ideal S10000x128 .f32)
    (Ws : Vec Ideal S128x128 .f32) (r : Fin 40) (j : Fin 128) (row : Fin 10000)
    (hrow : row.val = 2000 * 2 + 40 * (i 0).val + r.val) :
    VO.read (Elt Ideal) (VO.writes (Elt Ideal) VO.junk (pieces i A0 A1 A2 A3 A4 X S Ws)) (ix3 (2 : Fin 5) r j)
      = max ((∑ k : Fin 10000, A2 (ix2 r k) * S (ix2 k j))
          + (S (ix2 row j) + ∑ d : Fin 128, X (ix2 row d) * Ws (ix2 d j))) 0 := by
  unfold pieces
  refine (View.read_writes_cons_unit_of_not_mem VO VO.junk _ _ _ (ix3 (2 : Fin 5) r j) rfl (0 : Fin 3) (Or.inl (by show (2 : ℕ) < 4; omega))).trans ?_
  refine (View.read_writes_cons_unit_of_not_mem VO VO.junk _ _ _ (ix3 (2 : Fin 5) r j) rfl (0 : Fin 3) (Or.inl (by show (2 : ℕ) < 3; omega))).trans ?_
  refine (View.read_writes_cons_unit_of_mem VO VO.junk _ _ _ (ix3 (2 : Fin 5) r j) (ix3 (0 : Fin 1) r j) rfl (fun a => by
    match a with
    | ⟨0, _⟩ => rfl
    | ⟨1, _⟩ => exact (Nat.zero_add _).symm
    | ⟨2, _⟩ => exact (Nat.zero_add _).symm)).trans ?_
  rw [pay8_eq]
  refine (piece_apply _ r j).trans ?_
  rw [rowBlock_apply]
  rw [ldRows_apply S (k0_off1 i 4000#32) (k0_off1_inb i 2) (2000 * 2 + 40 * (i 0).val) (k0_off1_eq i ⟨2, by decide⟩) r j row hrow]
  simp only [fun d => ldRows_apply X (k0_off1 i 4000#32) (k0_off1_inb i 2) (2000 * 2 + 40 * (i 0).val) (k0_off1_eq i ⟨2, by decide⟩) r d row hrow]

theorem pieces_read1 (i : grid0.Coords) (A0 A1 A2 A3 A4 : Vec Ideal S40x10000 .f32) (X S : Vec Ideal S10000x128 .f32)
    (Ws : Vec Ideal S128x128 .f32) (r : Fin 40) (j : Fin 128) (row : Fin 10000)
    (hrow : row.val = 2000 * 1 + 40 * (i 0).val + r.val) :
    VO.read (Elt Ideal) (VO.writes (Elt Ideal) VO.junk (pieces i A0 A1 A2 A3 A4 X S Ws)) (ix3 (1 : Fin 5) r j)
      = max ((∑ k : Fin 10000, A1 (ix2 r k) * S (ix2 k j))
          + (S (ix2 row j) + ∑ d : Fin 128, X (ix2 row d) * Ws (ix2 d j))) 0 := by
  unfold pieces
  refine (View.read_writes_cons_unit_of_not_mem VO VO.junk _ _ _ (ix3 (1 : Fin 5) r j) rfl (0 : Fin 3) (Or.inl (by show (1 : ℕ) < 4; omega))).trans ?_
  refine (View.read_writes_cons_unit_of_not_mem VO VO.junk _ _ _ (ix3 (1 : Fin 5) r j) rfl (0 : Fin 3) (Or.inl (by show (1 : ℕ) < 3; omega))).trans ?_
  refine (View.read_writes_cons_unit_of_not_mem VO VO.junk _ _ _ (ix3 (1 : Fin 5) r j) rfl (0 : Fin 3) (Or.inl (by show (1 : ℕ) < 2; omega))).trans ?_
  refine (View.read_writes_cons_unit_of_mem VO VO.junk _ _ _ (ix3 (1 : Fin 5) r j) (ix3 (0 : Fin 1) r j) rfl (fun a => by
    match a with
    | ⟨0, _⟩ => rfl
    | ⟨1, _⟩ => exact (Nat.zero_add _).symm
    | ⟨2, _⟩ => exact (Nat.zero_add _).symm)).trans ?_
  rw [pay75_eq]
  refine (piece_apply _ r j).trans ?_
  rw [rowBlock_apply]
  rw [ldRows_apply S (k0_off1 i 2000#32) (k0_off1_inb i 1) (2000 * 1 + 40 * (i 0).val) (k0_off1_eq i ⟨1, by decide⟩) r j row hrow]
  simp only [fun d => ldRows_apply X (k0_off1 i 2000#32) (k0_off1_inb i 1) (2000 * 1 + 40 * (i 0).val) (k0_off1_eq i ⟨1, by decide⟩) r d row hrow]

theorem pieces_read0 (i : grid0.Coords) (A0 A1 A2 A3 A4 : Vec Ideal S40x10000 .f32) (X S : Vec Ideal S10000x128 .f32)
    (Ws : Vec Ideal S128x128 .f32) (r : Fin 40) (j : Fin 128) (row : Fin 10000)
    (hrow : row.val = 2000 * 0 + 40 * (i 0).val + r.val) :
    VO.read (Elt Ideal) (VO.writes (Elt Ideal) VO.junk (pieces i A0 A1 A2 A3 A4 X S Ws)) (ix3 (0 : Fin 5) r j)
      = max ((∑ k : Fin 10000, A0 (ix2 r k) * S (ix2 k j))
          + (S (ix2 row j) + ∑ d : Fin 128, X (ix2 row d) * Ws (ix2 d j))) 0 := by
  unfold pieces
  refine (View.read_writes_cons_unit_of_not_mem VO VO.junk _ _ _ (ix3 (0 : Fin 5) r j) rfl (0 : Fin 3) (Or.inl (by show (0 : ℕ) < 4; omega))).trans ?_
  refine (View.read_writes_cons_unit_of_not_mem VO VO.junk _ _ _ (ix3 (0 : Fin 5) r j) rfl (0 : Fin 3) (Or.inl (by show (0 : ℕ) < 3; omega))).trans ?_
  refine (View.read_writes_cons_unit_of_not_mem VO VO.junk _ _ _ (ix3 (0 : Fin 5) r j) rfl (0 : Fin 3) (Or.inl (by show (0 : ℕ) < 2; omega))).trans ?_
  refine (View.read_writes_cons_unit_of_not_mem VO VO.junk _ _ _ (ix3 (0 : Fin 5) r j) rfl (0 : Fin 3) (Or.inl (by show (0 : ℕ) < 1; omega))).trans ?_
  refine (View.read_writes_cons_unit_of_mem VO VO.junk _ _ _ (ix3 (0 : Fin 5) r j) (ix3 (0 : Fin 1) r j) rfl (fun a => by
    match a with
    | ⟨0, _⟩ => rfl
    | ⟨1, _⟩ => exact (Nat.zero_add _).symm
    | ⟨2, _⟩ => exact (Nat.zero_add _).symm)).trans ?_
  rw [pay4_eq]
  refine (piece_apply _ r j).trans ?_
  rw [rowBlock_apply]
  rw [ldRows_apply S (k0_off1 i 0#32) (k0_off1_inb i 0) (2000 * 0 + 40 * (i 0).val) (k0_off1_eq i ⟨0, by decide⟩) r j row hrow]
  simp only [fun d => ldRows_apply X (k0_off1 i 0#32) (k0_off1_inb i 0) (2000 * 0 + 40 * (i 0).val) (k0_off1_eq i ⟨0, by decide⟩) r d row hrow]

/-! ## The loaded blocks, off the argument arrays

A block's coordinate in its array is the block index times the block size plus the coordinate inside the block.
The five adjacency windows sit at block rows t, t + 50, …, t + 200 of 40 rows each, block column 0: local row r
of window h is row 2000·h + 40·t + r of the adjacency. The features and the two weights are staged whole. -/

/-- The adjacency windows' block indices, decided over the grid. -/
theorem idx_adj : ∀ t : Fin cfg0.N,
    win0_0.index t (0 : Fin 2) = t.val ∧ win0_0.index t (1 : Fin 2) = 0
    ∧ win0_1.index t (0 : Fin 2) = t.val + 50 ∧ win0_1.index t (1 : Fin 2) = 0
    ∧ win0_2.index t (0 : Fin 2) = t.val + 100 ∧ win0_2.index t (1 : Fin 2) = 0
    ∧ win0_3.index t (0 : Fin 2) = t.val + 150 ∧ win0_3.index t (1 : Fin 2) = 0
    ∧ win0_4.index t (0 : Fin 2) = t.val + 200 ∧ win0_4.index t (1 : Fin 2) = 0 :=
  (by decide +kernel : ∀ t : Fin grid0.N, _)

/-- The whole-array windows' block indices are zero. -/
theorem idx_whole : ∀ t : Fin cfg0.N,
    win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem adj0_apply (c : Dev nD) (t : Fin cfg0.N) (r : Fin 40) (k : Fin 10000) (row : Fin 10000)
    (hrow : row.val = 2000 * 0 + 40 * t.val + r.val) :
    (iblk m c 0 t : Vec Ideal S40x10000 .f32) (ix2 r k) = argAdj m c (ix2 row k) := by
  show V m c main_arg1 (((cfg0.win 0).blk t).view.emb (ix2 r k)) = V m c main_arg1 (ix2 row k)
  refine congrArg (V m c main_arg1) (funext fun a => Fin.ext ?_)
  have e := idx_adj t
  match a with
  | ⟨0, _⟩ => show win0_0.index t (0 : Fin 2) * 40 + 1 * r.val = row.val; omega
  | ⟨1, _⟩ => show win0_0.index t (1 : Fin 2) * 10000 + 1 * k.val = k.val; omega

theorem adj1_apply (c : Dev nD) (t : Fin cfg0.N) (r : Fin 40) (k : Fin 10000) (row : Fin 10000)
    (hrow : row.val = 2000 * 1 + 40 * t.val + r.val) :
    (iblk m c 1 t : Vec Ideal S40x10000 .f32) (ix2 r k) = argAdj m c (ix2 row k) := by
  show V m c main_arg1 (((cfg0.win 1).blk t).view.emb (ix2 r k)) = V m c main_arg1 (ix2 row k)
  refine congrArg (V m c main_arg1) (funext fun a => Fin.ext ?_)
  have e := idx_adj t
  match a with
  | ⟨0, _⟩ => show win0_1.index t (0 : Fin 2) * 40 + 1 * r.val = row.val; omega
  | ⟨1, _⟩ => show win0_1.index t (1 : Fin 2) * 10000 + 1 * k.val = k.val; omega

theorem adj2_apply (c : Dev nD) (t : Fin cfg0.N) (r : Fin 40) (k : Fin 10000) (row : Fin 10000)
    (hrow : row.val = 2000 * 2 + 40 * t.val + r.val) :
    (iblk m c 2 t : Vec Ideal S40x10000 .f32) (ix2 r k) = argAdj m c (ix2 row k) := by
  show V m c main_arg1 (((cfg0.win 2).blk t).view.emb (ix2 r k)) = V m c main_arg1 (ix2 row k)
  refine congrArg (V m c main_arg1) (funext fun a => Fin.ext ?_)
  have e := idx_adj t
  match a with
  | ⟨0, _⟩ => show win0_2.index t (0 : Fin 2) * 40 + 1 * r.val = row.val; omega
  | ⟨1, _⟩ => show win0_2.index t (1 : Fin 2) * 10000 + 1 * k.val = k.val; omega

theorem adj3_apply (c : Dev nD) (t : Fin cfg0.N) (r : Fin 40) (k : Fin 10000) (row : Fin 10000)
    (hrow : row.val = 2000 * 3 + 40 * t.val + r.val) :
    (iblk m c 3 t : Vec Ideal S40x10000 .f32) (ix2 r k) = argAdj m c (ix2 row k) := by
  show V m c main_arg1 (((cfg0.win 3).blk t).view.emb (ix2 r k)) = V m c main_arg1 (ix2 row k)
  refine congrArg (V m c main_arg1) (funext fun a => Fin.ext ?_)
  have e := idx_adj t
  match a with
  | ⟨0, _⟩ => show win0_3.index t (0 : Fin 2) * 40 + 1 * r.val = row.val; omega
  | ⟨1, _⟩ => show win0_3.index t (1 : Fin 2) * 10000 + 1 * k.val = k.val; omega

theorem adj4_apply (c : Dev nD) (t : Fin cfg0.N) (r : Fin 40) (k : Fin 10000) (row : Fin 10000)
    (hrow : row.val = 2000 * 4 + 40 * t.val + r.val) :
    (iblk m c 4 t : Vec Ideal S40x10000 .f32) (ix2 r k) = argAdj m c (ix2 row k) := by
  show V m c main_arg1 (((cfg0.win 4).blk t).view.emb (ix2 r k)) = V m c main_arg1 (ix2 row k)
  refine congrArg (V m c main_arg1) (funext fun a => Fin.ext ?_)
  have e := idx_adj t
  match a with
  | ⟨0, _⟩ => show win0_4.index t (0 : Fin 2) * 40 + 1 * r.val = row.val; omega
  | ⟨1, _⟩ => show win0_4.index t (1 : Fin 2) * 10000 + 1 * k.val = k.val; omega

/-- The features' window holds the features. -/
theorem xblk_apply (c : Dev nD) (t : Fin cfg0.N) (p : Fin 10000) (q : Fin 128) :
    (iblk m c 5 t : Vec Ideal S10000x128 .f32) (ix2 p q) = argX m c (ix2 p q) := by
  show V m c main_arg0 (((cfg0.win 5).blk t).view.emb (ix2 p q)) = V m c main_arg0 (ix2 p q)
  refine congrArg (V m c main_arg0) (funext fun a => Fin.ext ?_)
  have e := idx_whole t
  match a with
  | ⟨0, _⟩ => show win0_5.index t (0 : Fin 2) * 10000 + 1 * p.val = p.val; omega
  | ⟨1, _⟩ => show win0_5.index t (1 : Fin 2) * 128 + 1 * q.val = q.val; omega

/-- The weight's window holds the weight. -/
theorem wblk_apply (c : Dev nD) (t : Fin cfg0.N) (p : Fin 128) (q : Fin 128) :
    (iblk m c 6 t : Vec Ideal S128x128 .f32) (ix2 p q) = argW m c (ix2 p q) := by
  show V m c main_arg2 (((cfg0.win 6).blk t).view.emb (ix2 p q)) = V m c main_arg2 (ix2 p q)
  refine congrArg (V m c main_arg2) (funext fun a => Fin.ext ?_)
  have e := idx_whole t
  match a with
  | ⟨0, _⟩ => show win0_6.index t (0 : Fin 2) * 128 + 1 * p.val = p.val; omega
  | ⟨1, _⟩ => show win0_6.index t (1 : Fin 2) * 128 + 1 * q.val = q.val; omega

/-- The self-weight's window holds the self-weight. -/
theorem wsblk_apply (c : Dev nD) (t : Fin cfg0.N) (p : Fin 128) (q : Fin 128) :
    (iblk m c 7 t : Vec Ideal S128x128 .f32) (ix2 p q) = argWs m c (ix2 p q) := by
  show V m c main_arg3 (((cfg0.win 7).blk t).view.emb (ix2 p q)) = V m c main_arg3 (ix2 p q)
  refine congrArg (V m c main_arg3) (funext fun a => Fin.ext ?_)
  have e := idx_whole t
  match a with
  | ⟨0, _⟩ => show win0_7.index t (0 : Fin 2) * 128 + 1 * p.val = p.val; omega
  | ⟨1, _⟩ => show win0_7.index t (1 : Fin 2) * 128 + 1 * q.val = q.val; omega

/-! ## The support -/

/-- The product the first point stores: entry (k, j) sums over the 128 features. -/
theorem pay3_apply (X : Vec Ideal S10000x128 .f32) (W : Vec Ideal S128x128 .f32) (k : Fin 10000) (j : Fin 128) :
    k0_pay3 (F := Ideal) X W (ix2 k j) = ∑ d : Fin 128, X (ix2 k d) * W (ix2 d j) := by
  unfold k0_pay3
  refine (congrFun (shapeCast_self _ shapeCasts_S10000x128_S10000x128) (ix2 k j)).trans ?_
  exact mmSupp_apply X W k j

/-- Of the staged features and weight, it is the specification's support x·W. -/
theorem pay3_support (c : Dev nD) (t : Fin cfg0.N) (k : Fin 10000) (j : Fin 128) :
    k0_pay3 (F := Ideal) (iblk m c 5 t) (iblk m c 6 t) (ix2 k j) = Cert.Spec.support (argX m c) (argW m c) k j := by
  refine (pay3_apply (iblk m c 5 t) (iblk m c 6 t) k j).trans ?_
  unfold Cert.Spec.support
  exact Finset.sum_congr rfl fun d _ => congrArg₂ (· * ·) (xblk_apply m c t k d) (wblk_apply m c t d j)

/-- What the scratch holds after the first point is that product. -/
theorem supp_eq (c : Dev nD) : supp (F := Ideal) m c = k0_pay3 (F := Ideal) (iblk m c 5 t0) (iblk m c 6 t0) := by
  unfold supp
  rw [View.read_writes_junk_eq_canon]
  unfold runAt kernelRunA
  dsimp only
  sl_unfold_words
  rw [View.canon_unit_zero (S := S10000x128) zeros2]
  simp only [View.readAt_eq_ld, Memref.IsWhole.read_unread, View.ld_unit_zero (S := S10000x128) zeros2,
    View.ld_unit_zero (S := S128x128) zeros2]

theorem supp_apply (c : Dev nD) (k : Fin 10000) (j : Fin 128) :
    supp (F := Ideal) m c (ix2 k j) = Cert.Spec.support (argX m c) (argW m c) k j := by
  rw [supp_eq]
  exact pay3_support m c t0 k j

/-! ## The block is the layer -/

/-- The row block's entry, its four parts identified with the argument arrays, is the layer: the same
    arrangement of the same sums on both sides. -/
theorem layer_of_parts (x : Cert.Spec.SNF.Idx → EReal) (adj : Cert.Spec.SNN.Idx → EReal) (W Ws : Cert.Spec.SFF.Idx → EReal)
    (A : Vec Ideal S40x10000 .f32) (X S : Vec Ideal S10000x128 .f32) (Wself : Vec Ideal S128x128 .f32)
    (r : Fin 40) (j : Fin 128) (row : Fin 10000)
    (hA : ∀ k, A (ix2 r k) = adj (ix2 row k)) (hS : ∀ k, S (ix2 k j) = Cert.Spec.support x W k j)
    (hX : ∀ d, X (ix2 row d) = x (ix2 row d)) (hW : ∀ d, Wself (ix2 d j) = Ws (ix2 d j)) :
    max ((∑ k : Fin 10000, A (ix2 r k) * S (ix2 k j))
        + (S (ix2 row j) + ∑ d : Fin 128, X (ix2 row d) * Wself (ix2 d j))) 0
      = Cert.Spec.layerAt x adj W Ws row j := by
  unfold Cert.Spec.layerAt
  refine congrArg (max · 0) (congrArg₂ (· + ·)
    (Finset.sum_congr rfl fun k _ => congrArg₂ (· * ·) (hA k) (hS k)) (congrArg₂ (· + ·) (hS row) ?_))
  show _ = ∑ d : Fin 128, x (ix2 row d) * Ws (ix2 d j)
  exact Finset.sum_congr rfl fun d _ => congrArg₂ (· * ·) (hX d) (hW d)

/-- The grid's one coordinate is the point's position. -/
theorem coord_val : ∀ t : Fin cfg0.N, (grid0.coords t 0).val = t.val :=
  (by decide +kernel : ∀ t : Fin grid0.N, (grid0.coords t 0).val = t.val)

/-- The pieces of point `t`, over any contents `S` of the scratch that are the support, read back as the layer at
    node h·2000 + 40·t + r: fifth by fifth. -/
theorem block_layer0 (c : Dev nD) (t : Fin cfg0.N) (S : Vec Ideal S10000x128 .f32)
    (hS : ∀ k j, S (ix2 k j) = Cert.Spec.support (argX m c) (argW m c) k j)
    (r : Fin 40) (j : Fin 128) (row : Fin 10000) (hrow : row.val = 0 * 2000 + 40 * t.val + r.val) :
    VO.read (Elt Ideal) (VO.writes (Elt Ideal) VO.junk (pieces (grid0.coords t) (iblk m c 0 t) (iblk m c 1 t)
        (iblk m c 2 t) (iblk m c 3 t) (iblk m c 4 t) (iblk m c 5 t) S (iblk m c 7 t))) (ix3 (0 : Fin 5) r j)
      = Cert.Spec.layerAt (argX m c) (argAdj m c) (argW m c) (argWs m c) row j := by
  have hi : (grid0.coords t 0).val = t.val := coord_val t
  refine (pieces_read0 (grid0.coords t) (iblk m c 0 t) (iblk m c 1 t) (iblk m c 2 t) (iblk m c 3 t) (iblk m c 4 t) (iblk m c 5 t) S (iblk m c 7 t) r j row (by rw [hi]; omega)).trans ?_
  exact layer_of_parts (argX m c) (argAdj m c) (argW m c) (argWs m c) (iblk m c 0 t) (iblk m c 5 t) S (iblk m c 7 t) r j row
    (fun k => adj0_apply m c t r k row (by omega)) (fun k => hS k j) (fun d => xblk_apply m c t row d)
    (fun d => wsblk_apply m c t d j)

theorem block_layer1 (c : Dev nD) (t : Fin cfg0.N) (S : Vec Ideal S10000x128 .f32)
    (hS : ∀ k j, S (ix2 k j) = Cert.Spec.support (argX m c) (argW m c) k j)
    (r : Fin 40) (j : Fin 128) (row : Fin 10000) (hrow : row.val = 1 * 2000 + 40 * t.val + r.val) :
    VO.read (Elt Ideal) (VO.writes (Elt Ideal) VO.junk (pieces (grid0.coords t) (iblk m c 0 t) (iblk m c 1 t)
        (iblk m c 2 t) (iblk m c 3 t) (iblk m c 4 t) (iblk m c 5 t) S (iblk m c 7 t))) (ix3 (1 : Fin 5) r j)
      = Cert.Spec.layerAt (argX m c) (argAdj m c) (argW m c) (argWs m c) row j := by
  have hi : (grid0.coords t 0).val = t.val := coord_val t
  refine (pieces_read1 (grid0.coords t) (iblk m c 0 t) (iblk m c 1 t) (iblk m c 2 t) (iblk m c 3 t) (iblk m c 4 t) (iblk m c 5 t) S (iblk m c 7 t) r j row (by rw [hi]; omega)).trans ?_
  exact layer_of_parts (argX m c) (argAdj m c) (argW m c) (argWs m c) (iblk m c 1 t) (iblk m c 5 t) S (iblk m c 7 t) r j row
    (fun k => adj1_apply m c t r k row (by omega)) (fun k => hS k j) (fun d => xblk_apply m c t row d)
    (fun d => wsblk_apply m c t d j)

theorem block_layer2 (c : Dev nD) (t : Fin cfg0.N) (S : Vec Ideal S10000x128 .f32)
    (hS : ∀ k j, S (ix2 k j) = Cert.Spec.support (argX m c) (argW m c) k j)
    (r : Fin 40) (j : Fin 128) (row : Fin 10000) (hrow : row.val = 2 * 2000 + 40 * t.val + r.val) :
    VO.read (Elt Ideal) (VO.writes (Elt Ideal) VO.junk (pieces (grid0.coords t) (iblk m c 0 t) (iblk m c 1 t)
        (iblk m c 2 t) (iblk m c 3 t) (iblk m c 4 t) (iblk m c 5 t) S (iblk m c 7 t))) (ix3 (2 : Fin 5) r j)
      = Cert.Spec.layerAt (argX m c) (argAdj m c) (argW m c) (argWs m c) row j := by
  have hi : (grid0.coords t 0).val = t.val := coord_val t
  refine (pieces_read2 (grid0.coords t) (iblk m c 0 t) (iblk m c 1 t) (iblk m c 2 t) (iblk m c 3 t) (iblk m c 4 t) (iblk m c 5 t) S (iblk m c 7 t) r j row (by rw [hi]; omega)).trans ?_
  exact layer_of_parts (argX m c) (argAdj m c) (argW m c) (argWs m c) (iblk m c 2 t) (iblk m c 5 t) S (iblk m c 7 t) r j row
    (fun k => adj2_apply m c t r k row (by omega)) (fun k => hS k j) (fun d => xblk_apply m c t row d)
    (fun d => wsblk_apply m c t d j)

theorem block_layer3 (c : Dev nD) (t : Fin cfg0.N) (S : Vec Ideal S10000x128 .f32)
    (hS : ∀ k j, S (ix2 k j) = Cert.Spec.support (argX m c) (argW m c) k j)
    (r : Fin 40) (j : Fin 128) (row : Fin 10000) (hrow : row.val = 3 * 2000 + 40 * t.val + r.val) :
    VO.read (Elt Ideal) (VO.writes (Elt Ideal) VO.junk (pieces (grid0.coords t) (iblk m c 0 t) (iblk m c 1 t)
        (iblk m c 2 t) (iblk m c 3 t) (iblk m c 4 t) (iblk m c 5 t) S (iblk m c 7 t))) (ix3 (3 : Fin 5) r j)
      = Cert.Spec.layerAt (argX m c) (argAdj m c) (argW m c) (argWs m c) row j := by
  have hi : (grid0.coords t 0).val = t.val := coord_val t
  refine (pieces_read3 (grid0.coords t) (iblk m c 0 t) (iblk m c 1 t) (iblk m c 2 t) (iblk m c 3 t) (iblk m c 4 t) (iblk m c 5 t) S (iblk m c 7 t) r j row (by rw [hi]; omega)).trans ?_
  exact layer_of_parts (argX m c) (argAdj m c) (argW m c) (argWs m c) (iblk m c 3 t) (iblk m c 5 t) S (iblk m c 7 t) r j row
    (fun k => adj3_apply m c t r k row (by omega)) (fun k => hS k j) (fun d => xblk_apply m c t row d)
    (fun d => wsblk_apply m c t d j)

theorem block_layer4 (c : Dev nD) (t : Fin cfg0.N) (S : Vec Ideal S10000x128 .f32)
    (hS : ∀ k j, S (ix2 k j) = Cert.Spec.support (argX m c) (argW m c) k j)
    (r : Fin 40) (j : Fin 128) (row : Fin 10000) (hrow : row.val = 4 * 2000 + 40 * t.val + r.val) :
    VO.read (Elt Ideal) (VO.writes (Elt Ideal) VO.junk (pieces (grid0.coords t) (iblk m c 0 t) (iblk m c 1 t)
        (iblk m c 2 t) (iblk m c 3 t) (iblk m c 4 t) (iblk m c 5 t) S (iblk m c 7 t))) (ix3 (4 : Fin 5) r j)
      = Cert.Spec.layerAt (argX m c) (argAdj m c) (argW m c) (argWs m c) row j := by
  have hi : (grid0.coords t 0).val = t.val := coord_val t
  refine (pieces_read4 (grid0.coords t) (iblk m c 0 t) (iblk m c 1 t) (iblk m c 2 t) (iblk m c 3 t) (iblk m c 4 t) (iblk m c 5 t) S (iblk m c 7 t) r j row (by rw [hi]; omega)).trans ?_
  exact layer_of_parts (argX m c) (argAdj m c) (argW m c) (argWs m c) (iblk m c 4 t) (iblk m c 5 t) S (iblk m c 7 t) r j row
    (fun k => adj4_apply m c t r k row (by omega)) (fun k => hS k j) (fun d => xblk_apply m c t row d)
    (fun d => wsblk_apply m c t d j)

/-- What the body leaves at point `t` is those pieces read back, over the support: at the first point the product
    it has just stored, at a later point what the scratch holds. -/
theorem outAt_of_block (c : Dev nD) (t : Fin cfg0.N) (y : S5x40x128.Idx) (v : EReal)
    (hb : ∀ S : Vec Ideal S10000x128 .f32, (∀ k j, S (ix2 k j) = Cert.Spec.support (argX m c) (argW m c) k j) →
      VO.read (Elt Ideal) (VO.writes (Elt Ideal) VO.junk (pieces (grid0.coords t) (iblk m c 0 t) (iblk m c 1 t)
        (iblk m c 2 t) (iblk m c 3 t) (iblk m c 4 t) (iblk m c 5 t) S (iblk m c 7 t))) y = v) :
    outAt (F := Ideal) m c t y = v := by
  by_cases hz : t.val = 0
  · rw [outAt_first m c t hz, runA_pieces m c t hz]
    exact hb _ (fun k j => pay3_support m c t k j)
  · rw [outAt_later m c t hz, runB_pieces m c t hz]
    exact hb _ (fun k j => supp_apply m c k j)

/-- Entry (h, r, j) of the block the body leaves at point `t` is the layer at node h·2000 + 40·t + r. -/
theorem outAt_apply (c : Dev nD) (t : Fin cfg0.N) (h : Fin 5) (r : Fin 40) (j : Fin 128)
    (row : Fin 10000) (hrow : row.val = h.val * 2000 + 40 * t.val + r.val) :
    outAt (F := Ideal) m c t (ix3 h r j)
      = Cert.Spec.layerAt (argX m c) (argAdj m c) (argW m c) (argWs m c) row j := by
  refine outAt_of_block m c t (ix3 h r j) _ fun S hS => ?_
  obtain ⟨n, hn⟩ := h
  have h5 : n = 0 ∨ n = 1 ∨ n = 2 ∨ n = 3 ∨ n = 4 := by omega
  rcases h5 with rfl | rfl | rfl | rfl | rfl
  · exact block_layer0 m c t S hS r j row hrow
  · exact block_layer1 m c t S hS r j row hrow
  · exact block_layer2 m c t S hS r j row hrow
  · exact block_layer3 m c t S hS r j row hrow
  · exact block_layer4 m c t S hS r j row hrow

end Cert.KernelIdeal.Hand

end
-- ==== Proof.KI.Value.lean ====
/-
  From the blocks to the array, and the array's rows laid end to end.

  The output array of five fifths × 2000 rows × 128 features is written back block by block: point t writes the
  5×40×128 block whose entry (h, r, j) sits at (h, 40·t + r, j). The fifty blocks tile the array, entry (h, r', j)
  lying in the block of point r' / 40 alone, so the array ends holding, at (h, r', j), the layer at node
  h·2000 + r'. The program's result is that array's rows laid end to end, fifth after fifth: row R of the result is
  row R % 2000 of fifth R / 2000, which is the layer at node R.
-/
import proofs.«105982_g56341380989462_cont_9to1_m_248_13_alg».proof.Proof.KI.OutValue
import proofs.«105982_g56341380989462_cont_9to1_m_248_13_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-- The node that row `r` of fifth `h` of the output array holds. -/
def nodeOf (h : Fin 5) (r : Fin 2000) : Fin 10000 := ⟨h.val * 2000 + r.val, by have := h.isLt; have := r.isLt; omega⟩

/-- The whole output array as ONE function of the arguments: entry (h, r, j) is the layer at node h·2000 + r. -/
def wholeOut (c : Dev nD) : Vec Ideal S5x2000x128 .f32 := fun i =>
  Cert.Spec.layerAt (argX m c) (argAdj m c) (argW m c) (argWs m c) (nodeOf (i 0) (i 1)) (i 2)

theorem wholeOut_apply (c : Dev nD) (h : Fin 5) (r : Fin 2000) (j : Fin 128) :
    wholeOut m c (ix3 h r j) = Cert.Spec.layerAt (argX m c) (argAdj m c) (argW m c) (argWs m c) (nodeOf h r) j := rfl

/-- The output window's block index at point `t`, decided over the grid: block t along the rows, the whole of the
    other two axes. -/
theorem out_index : ∀ t : Fin cfg0.N, win0_8.index t (0 : Fin 3) = 0 ∧ win0_8.index t (1 : Fin 3) = t.val
    ∧ win0_8.index t (2 : Fin 3) = 0 :=
  (by decide +kernel : ∀ t : Fin grid0.N, _)

/-- WHAT POINT `t` WRITES BACK is block `t` of the whole-array function: entry (h, r, j) of the block the body leaves
    is the layer at node h·2000 + 40·t + r, and that entry sits in the array at (h, 40·t + r, j). -/
theorem flushed_eq (c : Dev nD) (t : Fin cfg0.N) :
    (dats m 0 c).flushed 8 t = ((cfg0.win 8).blk t).view.read (Elt Ideal) (wholeOut m c) := by
  show (cfg0.win 8).cut (grid0.coords t) ((dats m 0 c).after 8 t) = _
  rw [after8]
  obtain ⟨e0, e1, e2⟩ := out_index t
  have hN : cfg0.N = 50 := N_0
  have ht : t.val < 50 := hN ▸ t.isLt
  funext y
  have hy0 : (y 0).val < 5 := (y 0).isLt
  have hy1 : (y 1).val < 40 := (y 1).isLt
  have hy2 : (y 2).val < 128 := (y 2).isLt
  rw [View.read_apply]
  show outAt (F := Ideal) m c t ((cfg0.win 8).xinj (grid0.coords t) y) = wholeOut m c (((cfg0.win 8).blk t).view.emb y)
  -- the block's own index, and where it sits in the array, by coordinates
  have hx : ((cfg0.win 8).xinj (grid0.coords t) y : S5x40x128.Idx)
      = ix3 (⟨(y 0).val, hy0⟩ : Fin 5) (⟨(y 1).val, hy1⟩ : Fin 40) (⟨(y 2).val, hy2⟩ : Fin 128) := by
    funext a
    match a with
    | ⟨0, _⟩ => rfl
    | ⟨1, _⟩ => rfl
    | ⟨2, _⟩ => rfl
  have he : (((cfg0.win 8).blk t).view.emb y : S5x2000x128.Idx)
      = ix3 (⟨(y 0).val, hy0⟩ : Fin 5) (⟨40 * t.val + (y 1).val, by omega⟩ : Fin 2000) (⟨(y 2).val, hy2⟩ : Fin 128) := by
    funext a
    apply Fin.ext
    match a with
    | ⟨0, _⟩ => show win0_8.index t (0 : Fin 3) * 5 + 1 * (y 0).val = (y 0).val; omega
    | ⟨1, _⟩ => show win0_8.index t (1 : Fin 3) * 40 + 1 * (y 1).val = 40 * t.val + (y 1).val; omega
    | ⟨2, _⟩ => show win0_8.index t (2 : Fin 3) * 128 + 1 * (y 2).val = (y 2).val; omega
  rw [hx, he, wholeOut_apply]
  exact outAt_apply m c t _ _ _ _
    (by show (y 0).val * 2000 + (40 * t.val + (y 1).val) = (y 0).val * 2000 + 40 * t.val + (y 1).val; omega)

/-- An index of the array is in point `t`'s block iff each coordinate is in the block's range on its axis. -/
theorem mem_outBlk (t : Fin cfg0.N) (i : S5x2000x128.Idx) :
    i ∈ ((cfg0.win 8).blk t).view.set ↔ ∀ a : Fin 3, win0_8.index t a * S5x40x128.size a ≤ (i a).val
      ∧ (i a).val < win0_8.index t a * S5x40x128.size a + S5x40x128.size a := by
  show i ∈ ((View.whole main_call0_v0).slice (win0_8.rect t)).set ↔ _
  rw [View.set_slice_whole, Rect.mem_set_unit]
  exact Iff.rfl

/-- THE FIFTY BLOCKS TILE THE ARRAY: row `r` of any fifth lies in the block of point r / 40, and every point writes
    its block back. -/
theorem out_covered (i : S5x2000x128.Idx) :
    ∃ t : Fin cfg0.N, (cfg0.win 8).flush t = true ∧ i ∈ ((cfg0.win 8).blk t).view.set := by
  have hN : cfg0.N = 50 := N_0
  have h0 : (i 0).val < 5 := (i 0).isLt
  have h1 : (i 1).val < 2000 := (i 1).isLt
  have h2 : (i 2).val < 128 := (i 2).isLt
  have hq : (i 1).val / 40 < cfg0.N := by rw [hN]; omega
  obtain ⟨e0, e1, e2⟩ := out_index ⟨(i 1).val / 40, hq⟩
  refine ⟨⟨(i 1).val / 40, hq⟩, flush0_8 _, ?_⟩
  rw [mem_outBlk]
  intro a
  match a with
  | ⟨0, _⟩ =>
    show win0_8.index ⟨(i 1).val / 40, hq⟩ (0 : Fin 3) * 5 ≤ (i 0).val
      ∧ (i 0).val < win0_8.index ⟨(i 1).val / 40, hq⟩ (0 : Fin 3) * 5 + 5
    rw [e0]; omega
  | ⟨1, _⟩ =>
    show win0_8.index ⟨(i 1).val / 40, hq⟩ (1 : Fin 3) * 40 ≤ (i 1).val
      ∧ (i 1).val < win0_8.index ⟨(i 1).val / 40, hq⟩ (1 : Fin 3) * 40 + 40
    rw [e1]; show (i 1).val / 40 * 40 ≤ (i 1).val ∧ (i 1).val < (i 1).val / 40 * 40 + 40; omega
  | ⟨2, _⟩ =>
    show win0_8.index ⟨(i 1).val / 40, hq⟩ (2 : Fin 3) * 128 ≤ (i 2).val
      ∧ (i 2).val < win0_8.index ⟨(i 1).val / 40, hq⟩ (2 : Fin 3) * 128 + 128
    rw [e2]; omega

/-- THE ARRAY after the run is the whole-array function. -/
theorem finalOut_eq (c : Dev nD) : finalOut (F := Ideal) m c = wholeOut m c :=
  (dats m 0 c).arrAt_eq_of_cover 8 (wholeOut m c) (fun t _ => flushed_eq m c t) out_covered

/-- The result's row `R` is row R % 2000 of fifth R / 2000 of the array (the same place when the rows are laid end
    to end), hence the layer at node R. -/
theorem result_apply (c : Dev nD) (R : Fin 10000) (j : Fin 128) :
    result (F := Ideal) m c (ix2 R j)
      = Cert.Spec.layerAt (argX m c) (argAdj m c) (argW m c) (argWs m c) R j := by
  have hR : R.val < 10000 := R.isLt
  have hj : j.val < 128 := j.isLt
  unfold result
  refine (shapeCast_apply (finalOut (F := Ideal) m c) shapeCasts_S5x2000x128_S10000x128 (ix2 R j)
    (ix3 (⟨R.val / 2000, by omega⟩ : Fin 5) (⟨R.val % 2000, by omega⟩ : Fin 2000) j) ?_).trans ?_
  · rw [Shape.rowMajor_val_three, Shape.rowMajor_val_two]
    show (R.val / 2000 * 2000 + R.val % 2000) * 128 + j.val = R.val * 128 + j.val
    omega
  · rw [finalOut_eq, wholeOut_apply]
    congr 1
    apply Fin.ext
    show R.val / 2000 * 2000 + R.val % 2000 = R.val
    omega

/-- THE PROGRAM'S RESULT is the layer of the four argument arrays. -/
theorem result_eq_layer (c : Dev nD) :
    result (F := Ideal) m c = Cert.Spec.layer (argX m c) (argAdj m c) (argW m c) (argWs m c) := by
  funext i
  obtain ⟨R, j, rfl⟩ : ∃ (R : Fin 10000) (j : Fin 128), i = ix2 R j := ⟨i 0, i 1, eq_ix2 i⟩
  rw [Cert.Spec.layer_apply]
  exact result_apply m c R j

end Cert.KernelIdeal.Hand

end
-- ==== Proof.RefLayer.lean ====
/-
  The reference program's last stage, read at an index, is the layer of the specification.

  The reference forms (adj + e)·S + x·Wself and clamps it below at zero, where S = x·W is the support and e is the
  identity matrix, built as "row number equals column number" and converted to a number: e[r, k] = 1 when r = k and
  0 otherwise.  The specification has Σₖ adj[r, k]·S[k, j] + (S[r, j] + Σ_d x[r, d]·Wself[d, j]) under the same clamp.
  The two agree by

      Σₖ (a k + δ r k) · s k  =  Σₖ a k · s k  +  s r,

  which holds when the a k and the s k are real numbers: over the extended reals multiplication does not distribute
  over addition at the infinities, so the law is proved over ℝ and carried across the coercion.  The entries of S are
  real because those of x and W are (a finite sum of products of reals).  The self term may be anything: it is only
  moved by associativity of addition, which holds on all of the extended reals.
-/
import proofs.«105982_g56341380989462_cont_9to1_m_248_13_alg».proof.Proof.Spec
import proofs.«105982_g56341380989462_cont_9to1_m_248_13_alg».proof.Proof.Gen.ReferenceIdeal.Read
import Mathlib.Data.EReal.Basic
import Mathlib.Algebra.BigOperators.Group.Finset.Basic
import Mathlib.Algebra.BigOperators.Group.Finset.Piecewise

noncomputable section

namespace Cert.RefLayer

open Idealize.ShloMosaic Idealize.ShloMosaic.ValueIdx Cert.ReferenceIdeal Cert.ReferenceIdeal.Read
open scoped BigOperators

/-! ## The algebraic law, over an abstract finite index type -/

/-- The coercion ℝ → EReal commutes with finite sums. -/
theorem coe_sum {ι : Type} (s : Finset ι) (f : ι → ℝ) :
    ((∑ i ∈ s, f i : ℝ) : EReal) = ∑ i ∈ s, (f i : EReal) := by
  classical
  refine Finset.induction_on s ?_ ?_
  · simp only [Finset.sum_empty, EReal.coe_zero]
  · intro a s ha ih
    rw [Finset.sum_insert ha, Finset.sum_insert ha, EReal.coe_add, ih]

/-- A finite sum of products of real numbers, taken in the extended reals, is a real number. -/
theorem sum_mul_isReal {ι : Type} (s : Finset ι) (f g : ι → EReal)
    (hf : ∀ k, ∃ t : ℝ, f k = (t : EReal)) (hg : ∀ k, ∃ t : ℝ, g k = (t : EReal)) :
    ∃ t : ℝ, ∑ k ∈ s, f k * g k = (t : EReal) := by
  choose f' hf' using hf
  choose g' hg' using hg
  refine ⟨∑ k ∈ s, f' k * g' k, ?_⟩
  rw [coe_sum]
  refine Finset.sum_congr rfl fun k _ => ?_
  rw [hf', hg', EReal.coe_mul]

/-- Over ℝ: adding the r-th row of the identity to the weights adds the r-th term to the weighted sum. -/
theorem real_sum_add_delta {ι : Type} [Fintype ι] [DecidableEq ι] (a s : ι → ℝ) (r : ι) :
    ∑ k, (a k + if r = k then 1 else 0) * s k = ∑ k, a k * s k + s r := by
  have h : ∀ k, (a k + if r = k then 1 else 0) * s k = a k * s k + if r = k then s k else 0 := by
    intro k
    by_cases hk : r = k
    · rw [if_pos hk, if_pos hk]; ring
    · rw [if_neg hk, if_neg hk]; ring
  simp only [h, Finset.sum_add_distrib, Finset.sum_ite_eq, Finset.mem_univ, if_true]

/-- The same law over the extended reals, for real weights and real summands. -/
theorem sum_add_delta {ι : Type} [Fintype ι] [DecidableEq ι] (a e s : ι → EReal) (r : ι)
    (ha : ∀ k, ∃ t : ℝ, a k = (t : EReal)) (hs : ∀ k, ∃ t : ℝ, s k = (t : EReal))
    (he : ∀ k, e k = if r = k then 1 else 0) :
    ∑ k, (a k + e k) * s k = ∑ k, a k * s k + s r := by
  choose a' ha' using ha
  choose s' hs' using hs
  have he' : ∀ k, e k = (((if r = k then 1 else 0 : ℝ)) : EReal) := by
    intro k
    rw [he k]
    by_cases hk : r = k
    · rw [if_pos hk, if_pos hk, EReal.coe_one]
    · rw [if_neg hk, if_neg hk, EReal.coe_zero]
  have hl : ∀ k, (a k + e k) * s k = (((a' k + if r = k then 1 else 0) * s' k : ℝ) : EReal) := by
    intro k
    rw [ha', he', hs', EReal.coe_mul, EReal.coe_add]
  have hr : ∀ k, a k * s k = ((a' k * s' k : ℝ) : EReal) := by
    intro k
    rw [ha', hs', EReal.coe_mul]
  simp only [hl, hr]
  rw [← coe_sum, ← coe_sum, hs' r, ← EReal.coe_add, real_sum_add_delta]

/-! ## The identity matrix of the reference -/

/-- Two node numbers give the same 32-bit word exactly when they are equal: both are below 10000 < 2³². -/
theorem word_eq_iff (r k : Fin 10000) :
    IntOp.addi (BitVec.ofNat 32 r.val) 0#32 = BitVec.ofNat 32 k.val ↔ r = k := by
  unfold IntOp.addi
  rw [BitVec.add_zero]
  constructor
  · intro h
    have h' := congrArg BitVec.toNat h
    simp only [BitVec.toNat_ofNat] at h'
    have hr := r.isLt
    have hk := k.isLt
    exact Fin.ext (by omega)
  · rintro rfl
    rfl

/-- The reference's "row number equals column number", as a number: the identity matrix. -/
theorem eye_apply (r k : Fin 10000) :
    val_main_v6 (F := Ideal) (ix2 r k) = if r = k then 1 else 0 := by
  rw [val_main_v6_apply, val_main_v5_apply, val_main_v4_apply, val_main_v1_apply, val_main_v3_apply,
    val_main_c_apply, val_main_v2_apply]
  show (((IntOp.cmpi .eq (IntOp.addi (BitVec.ofNat 32 r.val) 0#32) (BitVec.ofNat 32 k.val)).toNat : ℝ) : EReal) = _
  by_cases h : r = k
  · rw [if_pos h]
    have hw := (word_eq_iff r k).mpr h
    rw [hw]
    have h1 : (IntOp.cmpi .eq (BitVec.ofNat 32 k.val) (BitVec.ofNat 32 k.val)).toNat = 1 := by
      simp only [IntOp.cmpi, beq_self_eq_true, BitVec.ofBool_true]
      rfl
    rw [h1, Nat.cast_one, EReal.coe_one]
  · rw [if_neg h]
    have hw : ¬ IntOp.addi (BitVec.ofNat 32 r.val) 0#32 = BitVec.ofNat 32 k.val :=
      fun hc => h ((word_eq_iff r k).mp hc)
    have hb : (IntOp.addi (BitVec.ofNat 32 r.val) 0#32 == BitVec.ofNat 32 k.val) = false :=
      beq_eq_false_iff_ne.mpr hw
    have h0 : (IntOp.cmpi .eq (IntOp.addi (BitVec.ofNat 32 r.val) 0#32) (BitVec.ofNat 32 k.val)).toNat = 0 := by
      simp only [IntOp.cmpi, hb, BitVec.ofBool_false]
      rfl
    rw [h0, Nat.cast_zero, EReal.coe_zero]

/-! ## The stages of the reference at an index -/

/-- The first product is the support. -/
theorem v0_apply (x : (⟨S10000x128, .f32⟩ : BufTy).Contents (Elt Ideal)) (W : (⟨S128x128, .f32⟩ : BufTy).Contents (Elt Ideal))
    (k : Fin 10000) (j : Fin 128) :
    val_main_v0 (F := Ideal) x W (ix2 k j) = Cert.Spec.support x W k j := by
  rw [val_main_v0_apply]
  unfold Cert.Spec.support
  refine Finset.sum_congr rfl fun d _ => ?_
  have el : lidx_main_v0 (ix2 k j) d = ix2 k d :=
    funext fun a => Fin.ext (by match a with | ⟨0, _⟩ => rfl | ⟨1, _⟩ => rfl)
  have er : ridx_main_v0 (ix2 k j) d = ix2 d j :=
    funext fun a => Fin.ext (by match a with | ⟨0, _⟩ => rfl | ⟨1, _⟩ => rfl)
  rw [el, er]

/-- The self-weighted product is the support with the self weights. -/
theorem v9_apply (x : (⟨S10000x128, .f32⟩ : BufTy).Contents (Elt Ideal)) (Ws : (⟨S128x128, .f32⟩ : BufTy).Contents (Elt Ideal))
    (k : Fin 10000) (j : Fin 128) :
    val_main_v9 (F := Ideal) x Ws (ix2 k j) = Cert.Spec.support x Ws k j := by
  rw [val_main_v9_apply]
  unfold Cert.Spec.support
  refine Finset.sum_congr rfl fun d _ => ?_
  have el : lidx_main_v9 (ix2 k j) d = ix2 k d :=
    funext fun a => Fin.ext (by match a with | ⟨0, _⟩ => rfl | ⟨1, _⟩ => rfl)
  have er : ridx_main_v9 (ix2 k j) d = ix2 d j :=
    funext fun a => Fin.ext (by match a with | ⟨0, _⟩ => rfl | ⟨1, _⟩ => rfl)
  rw [el, er]

/-- The support of real features under real weights is real. -/
theorem support_isReal (x : Cert.Spec.SNF.Idx → EReal) (W : Cert.Spec.SFF.Idx → EReal)
    (hx : ∀ i, ∃ r : ℝ, x i = (r : EReal)) (hW : ∀ i, ∃ r : ℝ, W i = (r : EReal)) (k : Fin 10000) (j : Fin 128) :
    ∃ t : ℝ, Cert.Spec.support x W k j = (t : EReal) := by
  unfold Cert.Spec.support
  exact sum_mul_isReal Finset.univ (fun d => x (ix2 k d)) (fun d => W (ix2 d j)) (fun d => hx _) (fun d => hW _)

/-- The adjacency with the identity added, times the support: the neighbours' sum plus the node's own support. -/
theorem v8_apply (x : (⟨S10000x128, .f32⟩ : BufTy).Contents (Elt Ideal)) (adj : (⟨S10000x10000, .f32⟩ : BufTy).Contents (Elt Ideal))
    (W : (⟨S128x128, .f32⟩ : BufTy).Contents (Elt Ideal))
    (hx : ∀ i, ∃ r : ℝ, x i = (r : EReal)) (hadj : ∀ i, ∃ r : ℝ, adj i = (r : EReal)) (hW : ∀ i, ∃ r : ℝ, W i = (r : EReal))
    (r : Fin 10000) (j : Fin 128) :
    val_main_v8 (F := Ideal) x adj W (ix2 r j)
      = (∑ k : Fin 10000, adj (ix2 r k) * Cert.Spec.support x W k j) + Cert.Spec.support x W r j := by
  rw [val_main_v8_apply]
  have hterm : ∀ k : Fin 10000,
      val_main_v7 (F := Ideal) adj (lidx_main_v8 (ix2 r j) k) * val_main_v0 (F := Ideal) x W (ridx_main_v8 (ix2 r j) k)
        = (adj (ix2 r k) + (if r = k then 1 else 0)) * Cert.Spec.support x W k j := by
    intro k
    have el : lidx_main_v8 (ix2 r j) k = ix2 r k :=
      funext fun a => Fin.ext (by match a with | ⟨0, _⟩ => rfl | ⟨1, _⟩ => rfl)
    have er : ridx_main_v8 (ix2 r j) k = ix2 k j :=
      funext fun a => Fin.ext (by match a with | ⟨0, _⟩ => rfl | ⟨1, _⟩ => rfl)
    rw [el, er, val_main_v7_apply, eye_apply, v0_apply]
    rfl
  simp only [hterm]
  exact sum_add_delta (fun k => adj (ix2 r k)) (fun k => if r = k then 1 else 0)
    (fun k => Cert.Spec.support x W k j) r (fun k => hadj _) (fun k => support_isReal x W hx hW k j) (fun k => rfl)

/-! ## The reference is the layer -/

theorem ref_eq_layer
    (x : (⟨Cert.ReferenceIdeal.S10000x128, .f32⟩ : BufTy).Contents (Elt Ideal)) (adj : (⟨Cert.ReferenceIdeal.S10000x10000, .f32⟩ : BufTy).Contents (Elt Ideal))
    (W Ws : (⟨Cert.ReferenceIdeal.S128x128, .f32⟩ : BufTy).Contents (Elt Ideal))
    (hx : ∀ i, ∃ r : ℝ, x i = (r : EReal)) (hadj : ∀ i, ∃ r : ℝ, adj i = (r : EReal)) (hW : ∀ i, ∃ r : ℝ, W i = (r : EReal)) :
    Cert.ReferenceIdeal.Read.val_main_v11 (F := Ideal) x adj W Ws = Cert.Spec.layer x adj W Ws := by
  funext i
  obtain ⟨r, j, rfl⟩ : ∃ (r : Fin 10000) (j : Fin 128), i = ix2 r j := ⟨i 0, i 1, eq_ix2 i⟩
  rw [val_main_v11_apply, val_main_v10_apply, val_main_call0_v0_apply, val_main_call0_cst_apply,
    v8_apply x adj W hx hadj hW r j, v9_apply]
  rw [Ideal.maximumf_def, Ideal.addf_def, Ideal.ofBits_def, Ideal.ofBits_zero_f32, add_assoc]
  rfl

end Cert.RefLayer

end
-- ==== Proof.Finite.lean ====
/-
  Finiteness of the four argument arrays, read back from the printed predicate: the predicate takes each array's
  absolute value entry by entry, compares it strictly below +∞, conjoins all entries of each array and then the four
  arrays. Over the extended reals |x| = max x (-x), and max x (-x) < ⊤ excludes both infinities, so every entry of
  every array is (the image of) a real number.
-/
import proofs.«105982_g56341380989462_cont_9to1_m_248_13_alg».proof.Proof.Gen.Pre_finite_inputs
import Idealize.ShloMosaic.Lib.ReduceAll
import Idealize.ShloMosaic.Lib.ValueIdx
import Idealize.ShloMosaic.PureOps.Ideal

namespace Cert.Finite

open Idealize.ShloMosaic Idealize.ShloMosaic.ValueIdx

/-- The rank-0 shape has exactly one index. -/
instance : Subsingleton Cert.Pre_finite_inputs.S_.Idx := ⟨fun a b => funext fun d => d.elim0⟩

/-- An extended real whose absolute value max x (-x) lies strictly below ⊤ is a real: at ⊥ the negation is ⊤,
    at ⊤ the entry itself is, and in both cases the maximum is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The bit pattern 0x7F800000 denotes +∞. -/
theorem inf_bits : Ideal.ofBits .f32 0x7F800000#32 = (⊤ : EReal) := by
  simp [Ideal.ofBits, Ideal.ieee]

/-- One entry: where the strict comparison of |x| against +∞ holds, x is a real. -/
theorem real_of_cmp (x : Ideal .f32)
    (h : FloatOps.cmpf (F := Ideal) .olt (FloatOps.hostAbsf (F := Ideal) x) (FloatOps.ofBits (F := Ideal) .f32 0x7F800000#32) = 1#1) :
    ∃ r : ℝ, x = (r : EReal) := by
  apply real_of_abs_lt_top
  have h' : Ideal.cmp .olt (max x (-x)) (Ideal.ofBits .f32 0x7F800000#32) = 1#1 := h
  rw [inf_bits] at h'
  unfold Ideal.cmp at h'
  by_contra hn
  simp [hn] at h'

/-- The predicate's four conjuncts, entry by entry: every entry of every argument array is a real. -/
theorem finite_of_pre
    (x : FVec Ideal Cert.Pre_finite_inputs.S10000x128 .f32) (adj : FVec Ideal Cert.Pre_finite_inputs.S10000x10000 .f32)
    (W Ws : FVec Ideal Cert.Pre_finite_inputs.S128x128 .f32)
    (h : Cert.Pre_finite_inputs.fn (F := Ideal) x adj W Ws = fun _ => 1#1) :
    (∀ i, ∃ r : ℝ, x i = (r : EReal)) ∧ (∀ i, ∃ r : ℝ, adj i = (r : EReal)) ∧ (∀ i, ∃ r : ℝ, W i = (r : EReal)) ∧ (∀ i, ∃ r : ℝ, Ws i = (r : EReal)) := by
  have h0 := congrFun h ValueIdx.ix0
  dsimp only [Cert.Pre_finite_inputs.fn, Cert.Pre_finite_inputs.fn_part1] at h0
  obtain ⟨h1, hWs⟩ := IntOp.andi_eq_one.1 h0
  obtain ⟨h2, hW⟩ := IntOp.andi_eq_one.1 h1
  obtain ⟨hx, hadj⟩ := IntOp.andi_eq_one.1 h2
  exact ⟨fun i => real_of_cmp (x i) (Host.reduce_andi_all _ _ _ _ _ hx i),
    fun i => real_of_cmp (adj i) (Host.reduce_andi_all _ _ _ _ _ hadj i),
    fun i => real_of_cmp (W i) (Host.reduce_andi_all _ _ _ _ _ hW i),
    fun i => real_of_cmp (Ws i) (Host.reduce_andi_all _ _ _ _ _ hWs i)⟩

end Cert.Finite
-- ==== Proof.lean ====
/-
  A graph-convolution layer, out = relu( adj·(x·W) + x·W + x·Wself ), computed by one pipelined kernel over fifty grid
  points — each point handling forty rows of every fifth of the nodes, the support x·W computed once at the first
  point into scratch memory and reused — against the plain formula relu( (adj + I)·(x·W) + x·Wself ).

  The three frames: both printed kernels run to the end, faulting nowhere and leaving the four argument arrays as they
  were (the run is proved once, for any float instance, and read at the word level and at the extended reals); the
  reference is a straight line of host operations. Nothing was rewritten by the idealization, so there is nothing to
  preserve. The value claim: at the extended reals both results are the layer as ONE function of the arguments
  (Spec.lean). The kernel's result is that function as written; the reference's is (adj + I)·S, which equals
  adj·S + S entry by entry because every input entry is a real number — the precondition — so that multiplication
  distributes over the sum adj[r,k] + δ[r,k].
-/
import proofs.«105982_g56341380989462_cont_9to1_m_248_13_alg».proof.Defs
import proofs.«105982_g56341380989462_cont_9to1_m_248_13_alg».proof.Proof.Gen.Kernel
import proofs.«105982_g56341380989462_cont_9to1_m_248_13_alg».proof.Proof.Gen.KernelIdeal
import proofs.«105982_g56341380989462_cont_9to1_m_248_13_alg».proof.Proof.Gen.ReferenceIdeal
import proofs.«105982_g56341380989462_cont_9to1_m_248_13_alg».proof.Proof.Gen.Pre_finite_inputs
import proofs.«105982_g56341380989462_cont_9to1_m_248_13_alg».proof.Proof.Gen.ReferenceIdeal.Run
import proofs.«105982_g56341380989462_cont_9to1_m_248_13_alg».proof.Proof.Gen.ReferenceIdeal.Read
import proofs.«105982_g56341380989462_cont_9to1_m_248_13_alg».proof.Proof.K.Launch
import proofs.«105982_g56341380989462_cont_9to1_m_248_13_alg».proof.Proof.KI.Launch
import proofs.«105982_g56341380989462_cont_9to1_m_248_13_alg».proof.Proof.KI.Value
import proofs.«105982_g56341380989462_cont_9to1_m_248_13_alg».proof.Proof.RefLayer
import proofs.«105982_g56341380989462_cont_9to1_m_248_13_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the run's post without the result's value. -/
theorem frame_kernel : Cert.frame_Kernel := fun m ρ _ =>
  (θ_run Cert.Kernel.defs _ _).mono (fun _ h c => (h c).2) (Cert.Kernel.Hand.run_main (F := Bits) m ρ)

/-- The same run read at the extended reals. -/
theorem frame_kernelIdeal : Cert.frame_KernelIdeal := fun m ρ _ =>
  (θ_run Cert.KernelIdeal.defs _ _).mono (fun _ h c => (h c).2) (Cert.KernelIdeal.Hand.run_main (F := Ideal) m ρ)

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer of the arguments: the kernel's result is it as written; the reference's term is it
    because the inputs are real numbers. -/
theorem algebraic : Cert.algebraic_KernelIdeal_ReferenceIdeal := by
  intro m ρ m' ρ' hpre hagree
  refine ⟨fun c => Cert.KernelIdeal.Hand.result (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hadj, hW, -⟩ := Cert.Finite.finite_of_pre _ _ _ _ (hpre c)
  rw [Cert.ReferenceIdeal.Read.val_main_v11_eq, (hagree c).1, (hagree c).2.1, (hagree c).2.2.1, (hagree c).2.2.2,
    Cert.RefLayer.ref_eq_layer _ _ _ _ hx hadj hW]
  exact (Cert.KernelIdeal.Hand.result_eq_layer m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
